-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg8 : FVec F S32000x1024 .f32) (main_arg9 : FVec F S32000 .f32) (main_v33 : IVec S_ 1) : IVec S_ 1 :=
  let main_v34 : FVec F S32000x1024 .f32 := Host.absf main_arg8
  let main_cst_12 : FVec F S_ .f32 := constant S_ .f32 0x7F800000#32
  let main_v35 : FVec F S32000x1024 .f32 := broadcastInDim S32000x1024 ![] bcast_S_S32000x1024 main_cst_12
  let main_v36 : IVec S32000x1024 1 := cmpf .olt main_v34 main_v35
  let main_c_13 : IVec S_ 1 := constantI S_ 1 1#1
  let main_v37 : IVec S_ 1 := (fun x v => Host.reduce IntOp.andi x v reducesTo_S32000x1024_S_d0_1 h_S_) main_v36 main_c_13
  let main_v38 : IVec S_ 1 := andi main_v33 main_v37
  let main_v39 : FVec F S32000 .f32 := Host.absf main_arg9
  let main_cst_14 : FVec F S_ .f32 := constant S_ .f32 0x7F800000#32
  let main_v40 : FVec F S32000 .f32 := broadcastInDim S32000 ![] bcast_S_S32000 main_cst_14
  let main_v41 : IVec S32000 1 := cmpf .olt main_v39 main_v40
  let main_c_15 : IVec S_ 1 := constantI S_ 1 1#1
  let main_v42 : IVec S_ 1 := (fun x v => Host.reduce IntOp.andi x v reducesTo_S32000_S_d0 h_S_) main_v41 main_c_15
  let main_v43 : IVec S_ 1 := andi main_v38 main_v42
  main_v43

def fn_part1 {F : FTy → Type} [FloatOps F] (main_arg5 : FVec F S4096x1024 .f32) (main_arg6 : FVec F S4096 .f32) (main_arg7 : FVec F S4096 .f32) (main_arg8 : FVec F S32000x1024 .f32) (main_arg9 : FVec F S32000 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_v33

def fn {F : FTy → Type} [FloatOps F] (main_arg0 : IVec S32x129 32) (main_arg1 : FVec F S32x1024 .f32) (main_arg2 : FVec F S32x1024 .f32) (main_arg3 : FVec F S32000x512 .f32) (main_arg4 : FVec F S4096x512 .f32) (main_arg5 : FVec F S4096x1024 .f32) (main_arg6 : FVec F S4096 .f32) (main_arg7 : FVec F S4096 .f32) (main_arg8 : FVec F S32000x1024 .f32) (main_arg9 : FVec F S32000 .f32) : IVec S_ 1 :=
  let main_v0 : FVec F S32x1024 .f32 := Host.absf main_arg1
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x1024 .f32 := Host.absf main_arg2
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32000x512 .f32 := Host.absf main_arg3
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S4096x512 .f32 := Host.absf main_arg4
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg5 main_arg6 main_arg7 main_arg8 main_arg9 main_v13 main_v16
-- ==== Kernel.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S32x128 : Shape := ⟨2, ![32, 128]⟩
abbrev S_ : Shape := ⟨0, ![]⟩
abbrev S32x128x1 : Shape := ⟨3, ![32, 128, 1]⟩
abbrev S32x128x512 : Shape := ⟨3, ![32, 128, 512]⟩
abbrev S1024x4096 : Shape := ⟨2, ![1024, 4096]⟩
abbrev S32x4096 : Shape := ⟨2, ![32, 4096]⟩
abbrev S1x4096 : Shape := ⟨2, ![1, 4096]⟩
abbrev S32x1x4096 : Shape := ⟨3, ![32, 1, 4096]⟩
abbrev S32x1x1024 : Shape := ⟨3, ![32, 1, 1024]⟩
abbrev S512x4096 : Shape := ⟨2, ![512, 4096]⟩
abbrev S32x128x1024 : Shape := ⟨3, ![32, 128, 1024]⟩
abbrev S1x128x512 : Shape := ⟨3, ![1, 128, 512]⟩
abbrev S1x1x4096 : Shape := ⟨3, ![1, 1, 4096]⟩
abbrev S1x1x1024 : Shape := ⟨3, ![1, 1, 1024]⟩
abbrev S1x128x1024 : Shape := ⟨3, ![1, 128, 1024]⟩
abbrev S128x512 : Shape := ⟨2, ![128, 512]⟩
abbrev S128x4096 : Shape := ⟨2, ![128, 4096]⟩
abbrev S128x1024 : Shape := ⟨2, ![128, 1024]⟩
abbrev S1x1024 : Shape := ⟨2, ![1, 1024]⟩
abbrev S1024x32000 : Shape := ⟨2, ![1024, 32000]⟩
abbrev S1x32000 : Shape := ⟨2, ![1, 32000]⟩
abbrev S4096x32000 : Shape := ⟨2, ![4096, 32000]⟩
abbrev S512x1024 : Shape := ⟨2, ![512, 1024]⟩
abbrev S1024x1280 : Shape := ⟨2, ![1024, 1280]⟩
abbrev S1x1280 : Shape := ⟨2, ![1, 1280]⟩
abbrev S512x1280 : Shape := ⟨2, ![512, 1280]⟩
abbrev S32x128x32000 : Shape := ⟨3, ![32, 128, 32000]⟩

abbrev nBuf : Space → Nat
  | .hbm => 38
  | .vmem => 17
  | .smem => 0
  | _ => 0

abbrev bufTy : (tb : Table) → Fin (tcTables nBuf tb) → BufTy
  | .hbm, ⟨0, _⟩ => ⟨S32x129, .i32⟩
  | .hbm, ⟨1, _⟩ => ⟨S32x1024, .f32⟩
  | .hbm, ⟨2, _⟩ => ⟨S32x1024, .f32⟩
  | .hbm, ⟨3, _⟩ => ⟨S32000x512, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S32000x1024, .f32⟩
  | .hbm, ⟨9, _⟩ => ⟨S32000, .f32⟩
  | .hbm, ⟨10, _⟩ => ⟨S32x128, .i32⟩
  | .hbm, ⟨11, _⟩ => ⟨S_, .i32⟩
  | .hbm, ⟨12, _⟩ => ⟨S32x128, .i32⟩
  | .hbm, ⟨13, _⟩ => ⟨S32x128, .i1⟩
  | .hbm, ⟨14, _⟩ => ⟨S_, .i32⟩
  | .hbm, ⟨15, _⟩ => ⟨S32x128, .i32⟩
  | .hbm, ⟨16, _⟩ => ⟨S32x128, .i32⟩
  | .hbm, ⟨17, _⟩ => ⟨S32x128, .i32⟩
  | .hbm, ⟨18, _⟩ => ⟨S32x128x1, .i32⟩
  | .hbm, ⟨19, _⟩ => ⟨S32x128x512, .f32⟩
  | .hbm, ⟨20, _⟩ => ⟨S32x128x512, .bf16⟩
  | .hbm, ⟨21, _⟩ => ⟨S1024x4096, .f32⟩
  | .hbm, ⟨22, _⟩ => ⟨S32x4096, .f32⟩
  | .hbm, ⟨23, _⟩ => ⟨S4096, .f32⟩
  | .hbm, ⟨24, _⟩ => ⟨S1x4096, .f32⟩
  | .hbm, ⟨25, _⟩ => ⟨S32x4096, .f32⟩
  | .hbm, ⟨26, _⟩ => ⟨S32x4096, .f32⟩
  | .hbm, ⟨27, _⟩ => ⟨S32x1x4096, .f32⟩
  | .hbm, ⟨28, _⟩ => ⟨S32x1x1024, .f32⟩
  | .hbm, ⟨29, _⟩ => ⟨S512x4096, .f32⟩
  | .hbm, ⟨30, _⟩ => ⟨S512x4096, .bf16⟩
  | .hbm, ⟨31, _⟩ => ⟨S32x128x1024, .bf16⟩
  | .hbm, ⟨32, _⟩ => ⟨S4096x1024, .bf16⟩
  | .hbm, ⟨33, _⟩ => ⟨S1024x32000, .f32⟩
  | .hbm, ⟨34, _⟩ => ⟨S1024x32000, .bf16⟩
  | .hbm, ⟨35, _⟩ => ⟨S1x32000, .f32⟩
  | .hbm, ⟨36, _⟩ => ⟨S4096x32000, .f32⟩
  | .hbm, ⟨37, _⟩ => ⟨S32x128x32000, .f32⟩
  | .local _ .vmem, ⟨0, _⟩ => ⟨S1x128x512, .bf16⟩
  | .local _ .vmem, ⟨1, _⟩ => ⟨S1x128x512, .bf16⟩
  | .local _ .vmem, ⟨2, _⟩ => ⟨S512x4096, .bf16⟩
  | .local _ .vmem, ⟨3, _⟩ => ⟨S1x1x4096, .f32⟩
  | .local _ .vmem, ⟨4, _⟩ => ⟨S1x1x4096, .f32⟩
  | .local _ .vmem, ⟨5, _⟩ => ⟨S1x1x1024, .f32⟩
  | .local _ .vmem, ⟨6, _⟩ => ⟨S1x1x1024, .f32⟩
  | .local _ .vmem, ⟨7, _⟩ => ⟨S1x128x1024, .bf16⟩
  | .local _ .vmem, ⟨8, _⟩ => ⟨S1x128x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1280, .bf16⟩
  | .local _ .vmem, ⟨12, _⟩ => ⟨S1024x1280, .bf16⟩
  | .local _ .vmem, ⟨13, _⟩ => ⟨S1x1280, .f32⟩
  | .local _ .vmem, ⟨14, _⟩ => ⟨S1x1280, .f32⟩
  | .local _ .vmem, ⟨15, _⟩ => ⟨S512x1280, .f32⟩
  | .local _ .vmem, ⟨16, _⟩ => ⟨S512x1280, .f32⟩
  | _, _ => ⟨S32x129, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S32x129_S32x128_0_0 : S32x129.Slices ![0, 0] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bitsLt_bf16_f32 : FTy.bits .bf16 < FTy.bits .f32
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  shapeCasts_S32x4096_S32x1x4096 : S32x4096.ShapeCasts S32x1x4096
  shapeCasts_S32x1024_S32x1x1024 : S32x1024.ShapeCasts S32x1x1024
  transposes_S4096x512_S512x4096_1_0 : S4096x512.Transposes [1, 0] S512x4096
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S128x1024 : S1x1024.Broadcasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S1x128x1024_S1x128x1024_0_0_0 : (Rect.unit (s := S1x128x1024) ![0, 0, 0] S1x128x1024.size inb_S1x128x1024_S1x128x1024_0_0_0).PackedRows (EltTy.packing .bf16)
  shapeCasts_S32x128x1024_S4096x1024 : S32x128x1024.ShapeCasts S4096x1024
  transposes_S32000x1024_S1024x32000_1_0 : S32000x1024.Transposes [1, 0] S1024x32000
  shapeCasts_S32000_S1x32000 : S32000.ShapeCasts S1x32000
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  shapeCasts_S4096x32000_S32x128x32000 : S4096x32000.ShapeCasts S32x128x32000
  gather_S32000x512_S32x128x1_S32x128x512_2_0_n_n_0_2_1512_wf : GatherDims.WF S32000x512 S32x128x1 S32x128x512 [2] [0] [] [0] [] 2 ![1, 512]
  dot_S32x1024_S1024x4096_S32x4096_1_0_0_1_n_n_wf : DotDims.WF S32x1024 S1024x4096 S32x4096 [1] [0] [0] [1] [] []
  dot_S128x512_S512x4096_S128x4096_1_0_0_1_n_n_wf : DotDims.WF S128x512 S512x4096 S128x4096 [1] [0] [0] [1] [] []
  dot_S512x1024_S1024x1280_S512x1280_1_0_0_1_n_n_wf : DotDims.WF S512x1024 S1024x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S32x128x512.size a
  hwx0_0 : ∀ i : grid0.Coords, EltTy.bits .bf16 = 32 ∨ (Rect.block (s := S32x128x512) S1x128x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S32x1x4096.size a
  hwx0_2 : ∀ i : grid0.Coords, EltTy.bits .f32 = 32 ∨ (Rect.block (s := S32x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S32x128x1024.size a
  hwx0_4 : ∀ i : grid0.Coords, EltTy.bits .bf16 = 32 ∨ (Rect.block (s := S32x128x1024) S1x128x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1280.size a ≤ S1024x32000.size a
  hwx1_1 : ∀ i : grid1.Coords, EltTy.bits .bf16 = 32 ∨ (Rect.block (s := S1024x32000) S1024x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S4096x32000.size a
  hwx1_3 : ∀ i : grid1.Coords, EltTy.bits .f32 = 32 ∨ (Rect.block (s := S4096x32000) S512x1280.size (cc1_transform_3 i) (hinb1_3 i)).WholeWords (EltTy.packing .f32)

variable [Facts₀]

def gather_S32000x512_S32x128x1_S32x128x512_2_0_n_n_0_2_1512 : GatherDims S32000x512 S32x128x1 S32x128x512 where
  offsetDims := [2]
  collapsedSliceDims := [0]
  operandBatchingDims := []
  startIndicesBatchingDims := []
  startIndexMap := [0]
  indexVectorDim := 2
  sliceSizes := ![1, 512]
  wf := gather_S32000x512_S32x128x1_S32x128x512_2_0_n_n_0_2_1512_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S512x1024_S1024x1280_S512x1280_1_0_0_1_n_n : DotDims S512x1024 S1024x1280 S512x1280 where
  lhsContracting := [1]
  rhsContracting := [0]
  lhsNonContracting := [0]
  rhsNonContracting := [1]
  lhsBatch := []
  rhsBatch := []
  wf := dot_S512x1024_S1024x1280_S512x1280_1_0_0_1_n_n_wf

abbrev win0_0 : Pipeline.Window sig grid0 :=
  Pipeline.Window.ofSpec (Memref.whole main_v8) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x129 : Shape := ⟨2, ![32, 129]⟩
abbrev S32x1024 : Shape := ⟨2, ![32, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S32x128 : Shape := ⟨2, ![32, 128]⟩
abbrev S_ : Shape := ⟨0, ![]⟩
abbrev S32x128x1 : Shape := ⟨3, ![32, 128, 1]⟩
abbrev S32x128x512 : Shape := ⟨3, ![32, 128, 512]⟩
abbrev S1024x4096 : Shape := ⟨2, ![1024, 4096]⟩
abbrev S32x4096 : Shape := ⟨2, ![32, 4096]⟩
abbrev S1x4096 : Shape := ⟨2, ![1, 4096]⟩
abbrev S32x128x4096 : Shape := ⟨3, ![32, 128, 4096]⟩
abbrev S32x1x4096 : Shape := ⟨3, ![32, 1, 4096]⟩
abbrev S32x128x1024 : Shape := ⟨3, ![32, 128, 1024]⟩
abbrev S32x1x1024 : Shape := ⟨3, ![32, 1, 1024]⟩
abbrev S32x128x32000 : Shape := ⟨3, ![32, 128, 32000]⟩
abbrev S1x1x32000 : Shape := ⟨3, ![1, 1, 32000]⟩

abbrev nBuf : Space → Nat
  | .hbm => 70
  | .vmem => 0
  | .smem => 0
  | _ => 0

abbrev bufTy : (tb : Table) → Fin (tcTables nBuf tb) → BufTy
  | .hbm, ⟨0, _⟩ => ⟨S32x129, .i32⟩
  | .hbm, ⟨1, _⟩ => ⟨S32x1024, .f32⟩
  | .hbm, ⟨2, _⟩ => ⟨S32x1024, .f32⟩
  | .hbm, ⟨3, _⟩ => ⟨S32000x512, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S32000x1024, .f32⟩
  | .hbm, ⟨9, _⟩ => ⟨S32000, .f32⟩
  | .hbm, ⟨10, _⟩ => ⟨S32x128, .i32⟩
  | .hbm, ⟨11, _⟩ => ⟨S_, .i32⟩
  | .hbm, ⟨12, _⟩ => ⟨S32x128, .i32⟩
  | .hbm, ⟨13, _⟩ => ⟨S32x128, .i1⟩
  | .hbm, ⟨14, _⟩ => ⟨S_, .i32⟩
  | .hbm, ⟨15, _⟩ => ⟨S32x128, .i32⟩
  | .hbm, ⟨16, _⟩ => ⟨S32x128, .i32⟩
  | .hbm, ⟨17, _⟩ => ⟨S32x128, .i32⟩
  | .hbm, ⟨18, _⟩ => ⟨S32x128x1, .i32⟩
  | .hbm, ⟨19, _⟩ => ⟨S32x128x512, .f32⟩
  | .hbm, ⟨20, _⟩ => ⟨S1024x4096, .f32⟩
  | .hbm, ⟨21, _⟩ => ⟨S32x4096, .f32⟩
  | .hbm, ⟨22, _⟩ => ⟨S4096, .f32⟩
  | .hbm, ⟨23, _⟩ => ⟨S1x4096, .f32⟩
  | .hbm, ⟨24, _⟩ => ⟨S32x4096, .f32⟩
  | .hbm, ⟨25, _⟩ => ⟨S32x4096, .f32⟩
  | .hbm, ⟨26, _⟩ => ⟨S32x128x4096, .f32⟩
  | .hbm, ⟨27, _⟩ => ⟨S32x1x4096, .f32⟩
  | .hbm, ⟨28, _⟩ => ⟨S32x128x4096, .f32⟩
  | .hbm, ⟨29, _⟩ => ⟨S32x128x4096, .f32⟩
  | .hbm, ⟨30, _⟩ => ⟨S32x128x1024, .f32⟩
  | .hbm, ⟨31, _⟩ => ⟨S32x128x1024, .f32⟩
  | .hbm, ⟨32, _⟩ => ⟨S32x128x1024, .f32⟩
  | .hbm, ⟨33, _⟩ => ⟨S32x128x1024, .f32⟩
  | .hbm, ⟨34, _⟩ => ⟨S32x128x1024, .f32⟩
  | .hbm, ⟨35, _⟩ => ⟨S32x128x1024, .f32⟩
  | .hbm, ⟨36, _⟩ => ⟨S_, .f32⟩
  | .hbm, ⟨37, _⟩ => ⟨S32x128x1024, .f32⟩
  | .hbm, ⟨38, _⟩ => ⟨S32x128x1024, .f32⟩
  | .hbm, ⟨39, _⟩ => ⟨S_, .f32⟩
  | .hbm, ⟨40, _⟩ => ⟨S32x128x1024, .f32⟩
  | .hbm, ⟨41, _⟩ => ⟨S32x128x1024, .f32⟩
  | .hbm, ⟨42, _⟩ => ⟨S32x128x1024, .f32⟩
  | .hbm, ⟨43, _⟩ => ⟨S32x128x1024, .f32⟩
  | .hbm, ⟨44, _⟩ => ⟨S_, .f32⟩
  | .hbm, ⟨45, _⟩ => ⟨S32x128x1024, .f32⟩
  | .hbm, ⟨46, _⟩ => ⟨S32x128x1024, .f32⟩
  | .hbm, ⟨47, _⟩ => ⟨S_, .f32⟩
  | .hbm, ⟨48, _⟩ => ⟨S32x128x1024, .f32⟩
  | .hbm, ⟨49, _⟩ => ⟨S32x128x1024, .f32⟩
  | .hbm, ⟨50, _⟩ => ⟨S32x128x1024, .f32⟩
  | .hbm, ⟨51, _⟩ => ⟨S32x128x1024, .f32⟩
  | .hbm, ⟨52, _⟩ => ⟨S32x128x1024, .f32⟩
  | .hbm, ⟨53, _⟩ => ⟨S_, .f32⟩
  | .hbm, ⟨54, _⟩ => ⟨S32x128x1024, .f32⟩
  | .hbm, ⟨55, _⟩ => ⟨S32x128x1024, .f32⟩
  | .hbm, ⟨56, _⟩ => ⟨S_, .f32⟩
  | .hbm, ⟨57, _⟩ => ⟨S32x128x1024, .f32⟩
  | .hbm, ⟨58, _⟩ => ⟨S32x128x1024, .f32⟩
  | .hbm, ⟨59, _⟩ => ⟨S32x1x1024, .f32⟩
  | .hbm, ⟨60, _⟩ => ⟨S32x128x1024, .f32⟩
  | .hbm, ⟨61, _⟩ => ⟨S32x128x1024, .f32⟩
  | .hbm, ⟨62, _⟩ => ⟨S32x128x1024, .f32⟩
  | .hbm, ⟨63, _⟩ => ⟨S32x128x1024, .f32⟩
  | .hbm, ⟨64, _⟩ => ⟨S32x128x1024, .f32⟩
  | .hbm, ⟨65, _⟩ => ⟨S32x128x1024, .f32⟩
  | .hbm, ⟨66, _⟩ => ⟨S32x128x32000, .f32⟩
  | .hbm, ⟨67, _⟩ => ⟨S1x1x32000, .f32⟩
  | .hbm, ⟨68, _⟩ => ⟨S32x128x32000, .f32⟩
  | .hbm, ⟨69, _⟩ => ⟨S32x128x32000, .f32⟩
  | _, _ => ⟨S32x129, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  slices_S32x129_S32x128_0_0 : S32x129.Slices ![0, 0] S32x128
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  slices_S32x128x4096_S32x128x1024_0_0_0 : S32x128x4096.Slices ![0, 0, 0] S32x128x1024
  slices_S32x128x4096_S32x128x1024_0_0_1024 : S32x128x4096.Slices ![0, 0, 1024] S32x128x1024
  slices_S32x128x4096_S32x128x1024_0_0_2048 : S32x128x4096.Slices ![0, 0, 2048] S32x128x1024
  slices_S32x128x4096_S32x128x1024_0_0_3072 : S32x128x4096.Slices ![0, 0, 3072] S32x128x1024
  bcast_S_S32x128x1024 : S_.BroadcastsInDim S32x128x1024 (![] : Fin 0 → Fin S32x128x1024.rank)
  bcast_S32x1024_S32x1x1024_0_2 : S32x1024.BroadcastsInDim S32x1x1024 (![0, 2] : Fin 2 → Fin S32x1x1024.rank)
  bcast_S32x1x1024_S32x128x1024_0_1_2 : S32x1x1024.BroadcastsInDim S32x128x1024 (![0, 1, 2] : Fin 3 → Fin S32x128x1024.rank)
  bcast_S32000_S1x1x32000_2 : S32000.BroadcastsInDim S1x1x32000 (![2] : Fin 1 → Fin S1x1x32000.rank)
  bcast_S1x1x32000_S32x128x32000_0_1_2 : S1x1x32000.BroadcastsInDim S32x128x32000 (![0, 1, 2] : Fin 3 → Fin S32x128x32000.rank)
  gather_S32000x512_S32x128x1_S32x128x512_2_0_n_n_0_2_1512_wf : GatherDims.WF S32000x512 S32x128x1 S32x128x512 [2] [0] [] [0] [] 2 ![1, 512]
  dot_S32x1024_S1024x4096_S32x4096_1_0_0_1_n_n_wf : DotDims.WF S32x1024 S1024x4096 S32x4096 [1] [0] [0] [1] [] []
  dot_S32x128x512_S4096x512_S32x128x4096_2_1_01_0_n_n_wf : DotDims.WF S32x128x512 S4096x512 S32x128x4096 [2] [1] [0, 1] [0] [] []
  dot_S32x128x1024_S32000x1024_S32x128x32000_2_1_01_0_n_n_wf : DotDims.WF S32x128x1024 S32000x1024 S32x128x32000 [2] [1] [0, 1] [0] [] []

variable [Facts₀]

def gather_S32000x512_S32x128x1_S32x128x512_2_0_n_n_0_2_1512 : GatherDims S32000x512 S32x128x1 S32x128x512 where
  offsetDims := [2]
  collapsedSliceDims := [0]
  operandBatchingDims := []
  startIndicesBatchingDims := []
  startIndexMap := [0]
  indexVectorDim := 2
  sliceSizes := ![1, 512]
  wf := gather_S32000x512_S32x128x1_S32x128x512_2_0_n_n_0_2_1512_wf
def dot_S32x1024_S1024x4096_S32x4096_1_0_0_1_n_n : DotDims S32x1024 S1024x4096 S32x4096 where
  lhsContracting := [1]
  rhsContracting := [0]
  lhsNonContracting := [0]
  rhsNonContracting := [1]
  lhsBatch := []
  rhsBatch := []
  wf := dot_S32x1024_S1024x4096_S32x4096_1_0_0_1_n_n_wf
def dot_S32x128x512_S4096x512_S32x128x4096_2_1_01_0_n_n : DotDims S32x128x512 S4096x512 S32x128x4096 where
  lhsContracting := [2]
  rhsContracting := [1]
  lhsNonContracting := [0, 1]
  rhsNonContracting := [0]
  lhsBatch := []
  rhsBatch := []
  wf := dot_S32x128x512_S4096x512_S32x128x4096_2_1_01_0_n_n_wf
def dot_S32x128x1024_S32000x1024_S32x128x32000_2_1_01_0_n_n : DotDims S32x128x1024 S32000x1024 S32x128x32000 where
  lhsContracting := [2]
  rhsContracting := [1]
  lhsNonContracting := [0, 1]
  rhsNonContracting := [0]
  lhsBatch := []
  rhsBatch := []
  wf := dot_S32x128x1024_S32000x1024_S32x128x32000_2_1_01_0_n_n_wf

class Facts : Prop extends Facts₀ where

variable [Facts]
-- ==== Proof.HostValues.lean ====
/-
  The host operations around the two regions, read at an index.

  Before the first region the host gathers the embedding rows of the tokens (`embRows`), forms the recurrent bias
  `h₀·W_hhᵀ + (b_ih + b_hh)` (`recBias`), transposes `W_ih`, and re-lays the bias and the initial cell with a unit middle
  axis. Between the regions it flattens the hidden array's (row, position) pair into one axis of 32·128 rows
  (row-major: row `128·b + t`), transposes `fc_w` and re-lays `fc_b` as a one-row matrix. After the second region it
  splits the flat axis back. A change of float format is the identity on the extended reals.
-/
import proofs.«165702_j9045201125559_1_alg».proof.Proof.Gen.KernelIdeal.Frame
import Idealize.ShloMosaic.PureOps.Ideal
import Idealize.ShloMosaic.Lib.StableHlo.Run
import Idealize.ShloMosaic.Lib.ValueIdx
import Idealize.ShloMosaic.Lib.Pipeline.Value

set_option maxRecDepth 16384

noncomputable section

namespace Cert.KernelIdeal.HostValues

open Cert.KernelIdeal Cert.KernelIdeal.Gen
open Idealize.ShloMosaic Idealize.ShloMosaic.TcCoe Idealize.ShloMosaic.ValueIdx
open Idealize.SL Idealize.SL.Sem
open Idealize.ShloMosaic.StableHlo
open Idealize.ShloMosaic.Pipeline (Dat Cfg Window)

/-- The embedding rows of the first 128 tokens of every batch row: a negative token index is first moved up by the
    table's 32000 rows, then row `token` of the table is taken. -/
def embRows (x0 : IVec S32x129 32) (x3 : FVec Ideal S32000x512 .f32) : FVec Ideal S32x128x512 .f32 :=
  Host.gather gather_S32000x512_S32x128x1_S32x128x512_2_0_n_n_0_2_1512 x3
    (broadcastInDim S32x128x1 ![0, 1] bcast_S32x128_S32x128x1_0_1
      (select
        (cmpi CmpIPredicate.slt (extractStridedSlice S32x128 ![0, 0] x0 slices_S32x129_S32x128_0_0)
          (broadcastInDim S32x128 ![] bcast_S_S32x128 (constantI S_ 32 0#32)))
        (addi (extractStridedSlice S32x128 ![0, 0] x0 slices_S32x129_S32x128_0_0)
          (broadcastInDim S32x128 ![] bcast_S_S32x128 (constantI S_ 32 32000#32)))
        (extractStridedSlice S32x128 ![0, 0] x0 slices_S32x129_S32x128_0_0)))

/-- The recurrent bias `h₀·W_hhᵀ + (b_ih + b_hh)`, one row of 4096 per batch row. -/
def recBias (x1 : FVec Ideal S32x1024 .f32) (x5 : FVec Ideal S4096x1024 .f32) (x6 x7 : FVec Ideal S4096 .f32) :
    FVec Ideal S32x4096 .f32 :=
  addf (F := Ideal)
    (Host.dotGeneral (F := Ideal) dot_S32x1024_S1024x4096_S32x4096_1_0_0_1_n_n none x1
      (transpose S1024x4096 [1, 0] x5 transposes_S4096x1024_S1024x4096_1_0))
    (broadcastInDim S32x4096 ![0, 1] bcast_S1x4096_S32x4096_0_1
      (broadcastInDim S1x4096 ![1] bcast_S4096_S1x4096_1 (addf x6 x7)))

variable (m : (ℓ : Loc nD τ sig) → Buf (Elt Ideal) ℓ) (ρ : Dev nD → PrngReg)

/-! ## What the first region finds -/

/-- Its input array holds the gathered embedding rows. -/
theorem entry_x (c : Dev nD) (b : Fin 32) (t : Fin 128) (e : Fin 512) :
    (V1 m ρ c main_v8 : Vec Ideal S32x128x512 .bf16) (ix3 b t e)
      = embRows (m ((c : Thread nD τ).loc main_arg0)) (m ((c : Thread nD τ).loc main_arg3)) (ix3 b t e) := by
  have h : @Eq (FVec Ideal S32x128x512 .bf16) (V1 m ρ c main_v8)
      (truncf .bf16 (embRows (m ((c : Thread nD τ).loc main_arg0)) (m ((c : Thread nD τ).loc main_arg3))) bitsLt_bf16_f32) := by
    show StableHlo.after hostOps0 (W0 m ρ c) (Proc.devRef .tc main_v8) = _
    after_results
    all_goals first | rfl | (funext i; rfl)
  rw [h]; rfl

/-- Its weight array holds `W_ih` transposed. -/
theorem entry_w (c : Dev nD) (g : Fin 4096) (e : Fin 512) :
    (V1 m ρ c main_v18 : Vec Ideal S512x4096 .bf16) (ix2 e g) = (m ((c : Thread nD τ).loc main_arg4)) (ix2 g e) := by
  have h : @Eq (FVec Ideal S512x4096 .bf16) (V1 m ρ c main_v18)
      (truncf .bf16 (transpose S512x4096 [1, 0] (m ((c : Thread nD τ).loc main_arg4)) transposes_S4096x512_S512x4096_1_0) bitsLt_bf16_f32) := by
    show StableHlo.after hostOps0 (W0 m ρ c) (Proc.devRef .tc main_v18) = _
    after_results
    all_goals first | rfl | (funext i; rfl)
  rw [h]
  show transpose S512x4096 [1, 0] (m ((c : Thread nD τ).loc main_arg4)) transposes_S4096x512_S512x4096_1_0 (ix2 e g) = _
  exact transpose_apply [1, 0] _ transposes_S4096x512_S512x4096_1_0 (ix2 e g) (ix2 g e) (fun a => match a with
    | ⟨0, _⟩ => rfl
    | ⟨1, _⟩ => rfl)

/-- Its bias array holds the recurrent bias, one row per batch row behind a unit axis. -/
theorem entry_b (c : Dev nD) (b : Fin 32) (g : Fin 4096) :
    (V1 m ρ c main_v15 : Vec Ideal S32x1x4096 .f32) (ix3 b 0 g)
      = recBias (m ((c : Thread nD τ).loc main_arg1)) (m ((c : Thread nD τ).loc main_arg5)) (m ((c : Thread nD τ).loc main_arg6)) (m ((c : Thread nD τ).loc main_arg7)) (ix2 b g) := by
  have h : @Eq (FVec Ideal S32x1x4096 .f32) (V1 m ρ c main_v15)
      (shapeCast S32x1x4096 (recBias (m ((c : Thread nD τ).loc main_arg1)) (m ((c : Thread nD τ).loc main_arg5)) (m ((c : Thread nD τ).loc main_arg6)) (m ((c : Thread nD τ).loc main_arg7))) shapeCasts_S32x4096_S32x1x4096) := by
    show StableHlo.after hostOps0 (W0 m ρ c) (Proc.devRef .tc main_v15) = _
    after_results
    all_goals first | rfl | (funext i; rfl)
  rw [h]
  refine shapeCast_apply _ shapeCasts_S32x4096_S32x1x4096 (ix3 b 0 g) (ix2 b g) ?_
  rw [Shape.rowMajor_val_two, Shape.rowMajor_val_three]
  show b.val * 4096 + g.val = (b.val * 1 + 0) * 4096 + g.val
  omega

/-- Its initial-cell array holds `c₀`, one row per batch row behind a unit axis. -/
theorem entry_c (c : Dev nD) (b : Fin 32) (k : Fin 1024) :
    (V1 m ρ c main_v16 : Vec Ideal S32x1x1024 .f32) (ix3 b 0 k) = (m ((c : Thread nD τ).loc main_arg2)) (ix2 b k) := by
  have h : @Eq (FVec Ideal S32x1x1024 .f32) (V1 m ρ c main_v16)
      (shapeCast S32x1x1024 (m ((c : Thread nD τ).loc main_arg2)) shapeCasts_S32x1024_S32x1x1024) := by
    show StableHlo.after hostOps0 (W0 m ρ c) (Proc.devRef .tc main_v16) = _
    after_results
    all_goals first | rfl | (funext i; rfl)
  rw [h]
  refine shapeCast_apply _ shapeCasts_S32x1024_S32x1x1024 (ix3 b 0 k) (ix2 b k) ?_
  rw [Shape.rowMajor_val_two, Shape.rowMajor_val_three]
  show b.val * 1024 + k.val = (b.val * 1 + 0) * 1024 + k.val
  omega

/-! ## What the second region finds -/

/-- Row `128·b + t` of the flat hidden array is row `(b, t)` of what the first region left. -/
theorem entry_h (c : Dev nD) (b : Fin 32) (t : Fin 128) (k : Fin 1024) :
    (V3 m ρ c main_v20 : Vec Ideal S4096x1024 .bf16) (ix2 ⟨128 * b.val + t.val, by omega⟩ k)
      = (dat0 (F := Ideal) (V1 m ρ) c).arrAt 4 cfg0.N (ix3 b t k) := by
  have h : @Eq (FVec Ideal S4096x1024 .bf16) (V3 m ρ c main_v20)
      (shapeCast S4096x1024 (W2 m ρ c (Proc.devRef .tc main_v19) : Vec Ideal S32x128x1024 .bf16) shapeCasts_S32x128x1024_S4096x1024) := by
    show StableHlo.after hostOps1 (W2 m ρ c) (Proc.devRef .tc main_v20) = _
    after_results
    all_goals first | rfl | (funext i; rfl)
  rw [h]
  refine (shapeCast_apply _ shapeCasts_S32x128x1024_S4096x1024 (ix2 ⟨128 * b.val + t.val, by omega⟩ k) (ix3 b t k) ?_).trans ?_
  · rw [Shape.rowMajor_val_two, Shape.rowMajor_val_three]
    show (b.val * 128 + t.val) * 1024 + k.val = (128 * b.val + t.val) * 1024 + k.val
    omega
  · exact congrFun (W2_arr m ρ c 4) (ix3 b t k)

/-- Its weight array holds `fc_w` transposed. -/
theorem entry_fw (c : Dev nD) (k : Fin 1024) (v : Fin 32000) :
    (V3 m ρ c main_v22 : Vec Ideal S1024x32000 .bf16) (ix2 k v) = (m ((c : Thread nD τ).loc main_arg8)) (ix2 v k) := by
  have h : @Eq (FVec Ideal S1024x32000 .bf16) (V3 m ρ c main_v22)
      (truncf .bf16 (transpose S1024x32000 [1, 0] (W2 m ρ c (Proc.devRef .tc main_arg8)) transposes_S32000x1024_S1024x32000_1_0) bitsLt_bf16_f32) := by
    show StableHlo.after hostOps1 (W2 m ρ c) (Proc.devRef .tc main_v22) = _
    after_results
    all_goals first | rfl | (funext i; rfl)
  have h8 : W2 m ρ c (Proc.devRef .tc main_arg8) = (m ((c : Thread nD τ).loc main_arg8)) :=
    (W2_of_ne m ρ c main_arg8 (by decide)).trans (by
      show StableHlo.after hostOps0 (W0 m ρ c) (Proc.devRef .tc main_arg8) = _
      after_results
      all_goals first | rfl | (funext i; rfl))
  rw [h, h8]
  show transpose S1024x32000 [1, 0] (m ((c : Thread nD τ).loc main_arg8)) transposes_S32000x1024_S1024x32000_1_0 (ix2 k v) = _
  exact transpose_apply [1, 0] _ transposes_S32000x1024_S1024x32000_1_0 (ix2 k v) (ix2 v k) (fun a => match a with
    | ⟨0, _⟩ => rfl
    | ⟨1, _⟩ => rfl)

/-- Its bias array holds `fc_b` as one row. -/
theorem entry_fb (c : Dev nD) (v : Fin 32000) :
    (V3 m ρ c main_v23 : Vec Ideal S1x32000 .f32) (ix2 0 v) = (m ((c : Thread nD τ).loc main_arg9)) (ix1 v) := by
  have h : @Eq (FVec Ideal S1x32000 .f32) (V3 m ρ c main_v23)
      (shapeCast S1x32000 (W2 m ρ c (Proc.devRef .tc main_arg9)) shapeCasts_S32000_S1x32000) := by
    show StableHlo.after hostOps1 (W2 m ρ c) (Proc.devRef .tc main_v23) = _
    after_results
    all_goals first | rfl | (funext i; rfl)
  have h9 : W2 m ρ c (Proc.devRef .tc main_arg9) = (m ((c : Thread nD τ).loc main_arg9)) :=
    (W2_of_ne m ρ c main_arg9 (by decide)).trans (by
      show StableHlo.after hostOps0 (W0 m ρ c) (Proc.devRef .tc main_arg9) = _
      after_results
      all_goals first | rfl | (funext i; rfl))
  rw [h, h9]
  refine shapeCast_apply _ shapeCasts_S32000_S1x32000 (ix2 0 v) (ix1 v) ?_
  rw [Shape.rowMajor_val_one, Shape.rowMajor_val_two]
  show v.val = 0 * 32000 + v.val
  omega

/-! ## The result -/

/-- The result at `(b, t, v)` is row `128·b + t`, word `v` of what the second region left. -/
theorem result_at (c : Dev nD) (b : Fin 32) (t : Fin 128) (v : Fin 32000) :
    (W5 m ρ c (Proc.devRef .tc main_v25) : Vec Ideal S32x128x32000 .f32) (ix3 b t v)
      = (dat1 (F := Ideal) (V3 m ρ) c).arrAt 3 cfg1.N (ix2 ⟨128 * b.val + t.val, by omega⟩ v) := by
  have h : @Eq (FVec Ideal S32x128x32000 .f32) (W5 m ρ c (Proc.devRef .tc main_v25))
      (shapeCast S32x128x32000 (W4 m ρ c (Proc.devRef .tc main_v24) : Vec Ideal S4096x32000 .f32) shapeCasts_S4096x32000_S32x128x32000) := by
    show StableHlo.after hostOps2 (W4 m ρ c) (Proc.devRef .tc main_v25) = _
    after_results
    all_goals first | rfl | (funext i; rfl)
  rw [h]
  refine (shapeCast_apply _ shapeCasts_S4096x32000_S32x128x32000 (ix3 b t v) (ix2 ⟨128 * b.val + t.val, by omega⟩ v) ?_).trans ?_
  · rw [Shape.rowMajor_val_two, Shape.rowMajor_val_three]
    show (128 * b.val + t.val) * 32000 + v.val = (b.val * 128 + t.val) * 32000 + v.val
    omega
  · exact congrFun (W4_arr m ρ c 3) (ix2 ⟨128 * b.val + t.val, by omega⟩ v)

end Cert.KernelIdeal.HostValues

end
-- ==== Proof.LstmSpec.lean ====
/-
  One LSTM step from a fixed state at every position, followed by a linear projection, as plain functions of
  coordinates over the extended reals.

  For one position with input row `x` (512 entries), gate bias row `bs` (4096 entries) and initial cell row `c₀`
  (1024 entries): the pre-activation of gate column `g` is `Σ_e x[e]·W[g,e] + bs[g]`; the 4096 columns are four
  quarters of 1024 (input, forget, cell, output); the new cell is `σ(f)·c₀ + σ(i)·tanh(g)` and the hidden value
  `σ(o)·tanh(cell)`. The logit of word `v` is `Σ_k hidden[k]·Fw[v,k] + Fb[v]`. `σ` is the logistic function of
  the extended reals (`⊥ ↦ 0`, `⊤ ↦ 1`). Nothing here needs finiteness: both programs compute these very sums and
  products, with the factors and the summands in this order.
-/
import Idealize.ShloMosaic.PureOps.Ideal

noncomputable section

namespace Cert.LstmSpec

open Idealize.ShloMosaic

/-- Column `1024·q + k` of the 4096 gate columns: entry `k` of quarter `q`. -/
abbrev col (q : Fin 4) (k : Fin 1024) : Fin 4096 := ⟨1024 * q.val + k.val, by omega⟩

/-- The pre-activation of gate column `g` for one position: `Σ_e x[e]·W[g,e] + bs[g]`. -/
def gateAt (x : Fin 512 → EReal) (W : Fin 4096 → Fin 512 → EReal) (bs : Fin 4096 → EReal) (g : Fin 4096) : EReal :=
  (∑ e : Fin 512, x e * W g e) + bs g

/-- The hidden value of unit `k` for one position: `σ(o) · tanh(σ(f)·c₀ + σ(i)·tanh(g))`. -/
def cell (x : Fin 512 → EReal) (W : Fin 4096 → Fin 512 → EReal) (bs : Fin 4096 → EReal) (c0 : Fin 1024 → EReal)
    (k : Fin 1024) : EReal :=
  Ideal.logistic (gateAt x W bs (col 3 k))
    * Ideal.tanh (Ideal.logistic (gateAt x W bs (col 1 k)) * c0 k
        + Ideal.logistic (gateAt x W bs (col 0 k)) * Ideal.tanh (gateAt x W bs (col 2 k)))

/-- The hidden value at batch row `b`, position `t`, unit `k`: the cell of that position's rows. -/
def hid (X : Fin 32 → Fin 128 → Fin 512 → EReal) (W : Fin 4096 → Fin 512 → EReal) (Bs : Fin 32 → Fin 4096 → EReal)
    (C0 : Fin 32 → Fin 1024 → EReal) (b : Fin 32) (t : Fin 128) (k : Fin 1024) : EReal :=
  cell (X b t) W (Bs b) (C0 b) k

/-- A row of hidden values projected onto word `v`: `Σ_k H[k]·Fw[v,k] + Fb[v]`. -/
def proj (H : Fin 1024 → EReal) (Fw : Fin 32000 → Fin 1024 → EReal) (Fb : Fin 32000 → EReal) (v : Fin 32000) : EReal :=
  (∑ k : Fin 1024, H k * Fw v k) + Fb v

/-- The logit of word `v` at batch row `b`, position `t`. -/
def logit (X : Fin 32 → Fin 128 → Fin 512 → EReal) (W : Fin 4096 → Fin 512 → EReal) (Bs : Fin 32 → Fin 4096 → EReal)
    (C0 : Fin 32 → Fin 1024 → EReal) (Fw : Fin 32000 → Fin 1024 → EReal) (Fb : Fin 32000 → EReal)
    (b : Fin 32) (t : Fin 128) (v : Fin 32000) : EReal :=
  proj (hid X W Bs C0 b t) Fw Fb v

end Cert.LstmSpec

end
-- ==== Proof.CellValue.lean ====
/-
  The first region: grid point `b` (one per batch row) reads input block `x[b,:,:]`, the whole transposed weight, the bias
  row and the initial cell row of batch row `b`, and stores the 128 × 1024 hidden values of that row. So the array the
  region leaves is, index by index, the hidden value of its (row, position, unit).
-/
import proofs.«165702_j9045201125559_1_alg».proof.Proof.Gen.KernelIdeal.Frame
import proofs.«165702_j9045201125559_1_alg».proof.Proof.LstmSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.CellValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The gate product read at an index -/

theorem gates_lhs_0 (i : S128x4096.Idx) (q : dot_S128x512_S512x4096_S128x4096_1_0_0_1_n_n.contr.Idx) :
    (dot_S128x512_S512x4096_S128x4096_1_0_0_1_n_n.lhsIdx i q 0).val = (i 0).val := by
  unfold DotDims.lhsIdx
  rw [dif_neg (show ¬(0 : Fin S128x512.rank) ∈ dot_S128x512_S512x4096_S128x4096_1_0_0_1_n_n.lhsBatch by decide), dif_pos (show (0 : Fin S128x512.rank) ∈ dot_S128x512_S512x4096_S128x4096_1_0_0_1_n_n.lhsNonContracting by decide)]
  rfl
theorem gates_lhs_1 (i : S128x4096.Idx) (q : dot_S128x512_S512x4096_S128x4096_1_0_0_1_n_n.contr.Idx) :
    (dot_S128x512_S512x4096_S128x4096_1_0_0_1_n_n.lhsIdx i q 1).val = (q ⟨0, by decide⟩).val :=
  dot_S128x512_S512x4096_S128x4096_1_0_0_1_n_n.lhsIdx_val_of_single rfl i q
theorem gates_rhs_0 (i : S128x4096.Idx) (q : dot_S128x512_S512x4096_S128x4096_1_0_0_1_n_n.contr.Idx) :
    (dot_S128x512_S512x4096_S128x4096_1_0_0_1_n_n.rhsIdx i q 0).val = (q ⟨0, by decide⟩).val :=
  dot_S128x512_S512x4096_S128x4096_1_0_0_1_n_n.rhsIdx_val_of_single rfl i q
theorem gates_rhs_1 (i : S128x4096.Idx) (q : dot_S128x512_S512x4096_S128x4096_1_0_0_1_n_n.contr.Idx) :
    (dot_S128x512_S512x4096_S128x4096_1_0_0_1_n_n.rhsIdx i q 1).val = (i 1).val := by
  unfold DotDims.rhsIdx
  rw [dif_neg (show ¬(1 : Fin S512x4096.rank) ∈ dot_S128x512_S512x4096_S128x4096_1_0_0_1_n_n.rhsBatch by decide), dif_pos (show (1 : Fin S512x4096.rank) ∈ dot_S128x512_S512x4096_S128x4096_1_0_0_1_n_n.rhsNonContracting by decide)]
  rfl

/-- The product of a 128 × 512 block with the 512 × 4096 weight into the zero accumulator, at row `p` and column `g`:
    the sum over the 512 input entries. -/
theorem gates_matmul_apply (a : FVec Ideal S128x512 .bf16) (b : FVec Ideal S512x4096 .bf16) (p : Fin 128) (g : Fin 4096) :
    matmul dot_S128x512_S512x4096_S128x4096_1_0_0_1_n_n none a b (constant (F := Ideal) S128x4096 .f32 0x00000000#32) (ix2 p g)
      = ∑ e : Fin 512, a (ix2 p e) * b (ix2 e g) := by
  simp only [matmul]
  rw [Ideal.matmul_constant_zero_apply, ← Equiv.sum_comp (ValueIdx.contrEquiv1 dot_S128x512_S512x4096_S128x4096_1_0_0_1_n_n 512 rfl rfl).symm]
  refine Finset.sum_congr rfl fun k _ => ?_
  have hk := ValueIdx.contrEquiv1_symm_val dot_S128x512_S512x4096_S128x4096_1_0_0_1_n_n 512 rfl rfl k
  have el : dot_S128x512_S512x4096_S128x4096_1_0_0_1_n_n.lhsIdx (ix2 p g) ((ValueIdx.contrEquiv1 dot_S128x512_S512x4096_S128x4096_1_0_0_1_n_n 512 rfl rfl).symm k) = ix2 p k := funext fun ax => Fin.ext (by
    match ax with
    | ⟨0, _⟩ => exact gates_lhs_0 _ _
    | ⟨1, _⟩ => exact (gates_lhs_1 _ _).trans hk)
  have er : dot_S128x512_S512x4096_S128x4096_1_0_0_1_n_n.rhsIdx (ix2 p g) ((ValueIdx.contrEquiv1 dot_S128x512_S512x4096_S128x4096_1_0_0_1_n_n 512 rfl rfl).symm k) = ix2 k g := funext fun ax => Fin.ext (by
    match ax with
    | ⟨0, _⟩ => exact (gates_rhs_0 _ _).trans hk
    | ⟨1, _⟩ => exact gates_rhs_1 _ _)
  rw [el, er]

/-! ## The block's gate pre-activations -/

/-- The gate pre-activations of one 128-row block: the block (its unit axis dropped) times the weight, plus the bias
    row repeated over the 128 rows. -/
def preact (x0 : Vec Ideal S1x128x512 .bf16) (x1 : Vec Ideal S512x4096 .bf16) (x2 : Vec Ideal S1x1x4096 .f32) :
    FVec Ideal S128x4096 .f32 :=
  addf (matmul dot_S128x512_S512x4096_S128x4096_1_0_0_1_n_n none
      (shapeCast S128x512 x0 shapeCasts_S1x128x512_S128x512 : FVec Ideal S128x512 .bf16)
      (shapeCast S512x4096 x1 shapeCasts_S512x4096_S512x4096 : FVec Ideal S512x4096 .bf16)
      (constant (F := Ideal) S128x4096 .f32 0x00000000#32))
    (broadcastTo S128x4096 (shapeCast S1x4096 x2 shapeCasts_S1x1x4096_S1x4096 : FVec Ideal S1x4096 .f32) broadcasts_S1x4096_S128x4096)

/-- At row `p` and column `g` it is the specification's pre-activation of column `g` for the position whose input row
    is row `p` of the block. -/
theorem preact_apply (x0 : Vec Ideal S1x128x512 .bf16) (x1 : Vec Ideal S512x4096 .bf16) (x2 : Vec Ideal S1x1x4096 .f32)
    (p : Fin 128) (g : Fin 4096) :
    preact x0 x1 x2 (ix2 p g)
      = Cert.LstmSpec.gateAt (fun e => x0 (ix3 0 p e)) (fun g e => x1 (ix2 e g)) (fun g => x2 (ix3 0 0 g)) g := by
  unfold preact Cert.LstmSpec.gateAt
  rw [addf_apply, gates_matmul_apply, broadcastTo_1b_ab_apply, shapeCast_self, shapeCast_1ab_ab_apply]
  refine congrArg (· + x2 (ix3 0 0 g)) (Finset.sum_congr rfl fun e _ => ?_)
  rw [shapeCast_1ab_ab_apply]

/-- The payload is the cell arithmetic over the four column quarters of the pre-activations. -/
theorem pay_eq (x0 : Vec Ideal S1x128x512 .bf16) (x1 : Vec Ideal S512x4096 .bf16) (x2 : Vec Ideal S1x1x4096 .f32)
    (x3 : Vec Ideal S1x1x1024 .f32) :
    k0_pay1 (F := Ideal) x0 x1 x2 x3
      = shapeCast S1x128x1024
          (truncf .bf16
            (mulf (logistic (extractStridedSlice S128x1024 ![0, 3072] (preact x0 x1 x2) slices_S128x4096_o0_3072_S128x1024))
              (tanh (addf
                (mulf (logistic (extractStridedSlice S128x1024 ![0, 1024] (preact x0 x1 x2) slices_S128x4096_o0_1024_S128x1024))
                  (broadcastTo S128x1024 (shapeCast S1x1024 x3 shapeCasts_S1x1x1024_S1x1024 : FVec Ideal S1x1024 .f32) broadcasts_S1x1024_S128x1024))
                (mulf (logistic (extractStridedSlice S128x1024 ![0, 0] (preact x0 x1 x2) slices_S128x4096_o0_0_S128x1024))
                  (tanh (extractStridedSlice S128x1024 ![0, 2048] (preact x0 x1 x2) slices_S128x4096_o0_2048_S128x1024))))))
            bitsLt_bf16_f32)
          shapeCasts_S128x1024_S1x128x1024 := rfl

/-! ## The payload at an index -/

/-- What the block stores at row `p`, unit `q`: the specification's hidden value for the position whose input row is
    row `p` of the block, with the block's bias row and initial cell row. The four column quarters of the
    pre-activations are read at columns `1024·j + q`; the rounding to the stored format is the identity over the
    extended reals. -/
theorem pay_apply (x0 : Vec Ideal S1x128x512 .bf16) (x1 : Vec Ideal S512x4096 .bf16) (x2 : Vec Ideal S1x1x4096 .f32)
    (x3 : Vec Ideal S1x1x1024 .f32) (u : Fin 1) (p : Fin 128) (q : Fin 1024) :
    k0_pay1 (F := Ideal) x0 x1 x2 x3 (ix3 u p q)
      = Cert.LstmSpec.cell (fun e => x0 (ix3 0 p e)) (fun g e => x1 (ix2 e g)) (fun g => x2 (ix3 0 0 g))
          (fun k => x3 (ix3 0 0 k)) q := by
  rw [pay_eq, shapeCast_ab_1ab_apply]
  show Ideal.logistic (extractStridedSlice S128x1024 ![0, 3072] (preact x0 x1 x2) slices_S128x4096_o0_3072_S128x1024 (ix2 p q))
      * Ideal.tanh
          (Ideal.logistic (extractStridedSlice S128x1024 ![0, 1024] (preact x0 x1 x2) slices_S128x4096_o0_1024_S128x1024 (ix2 p q))
              * broadcastTo S128x1024 (shapeCast S1x1024 x3 shapeCasts_S1x1x1024_S1x1024 : FVec Ideal S1x1024 .f32) broadcasts_S1x1024_S128x1024 (ix2 p q)
            + Ideal.logistic (extractStridedSlice S128x1024 ![0, 0] (preact x0 x1 x2) slices_S128x4096_o0_0_S128x1024 (ix2 p q))
              * Ideal.tanh (extractStridedSlice S128x1024 ![0, 2048] (preact x0 x1 x2) slices_S128x4096_o0_2048_S128x1024 (ix2 p q)))
    = _
  rw [slice2_axis1_apply 3072 (preact x0 x1 x2) slices_S128x4096_o0_3072_S128x1024 p q (Cert.LstmSpec.col 3 q) rfl,
    slice2_axis1_apply 1024 (preact x0 x1 x2) slices_S128x4096_o0_1024_S128x1024 p q (Cert.LstmSpec.col 1 q) rfl,
    slice2_axis1_apply 0 (preact x0 x1 x2) slices_S128x4096_o0_0_S128x1024 p q (Cert.LstmSpec.col 0 q) rfl,
    slice2_axis1_apply 2048 (preact x0 x1 x2) slices_S128x4096_o0_2048_S128x1024 p q (Cert.LstmSpec.col 2 q) rfl,
    broadcastTo_1b_ab_apply, shapeCast_1ab_ab_apply,
    preact_apply, preact_apply, preact_apply, preact_apply]
  rfl

/-! ## From the blocks to the array -/

-- the TensorCore's buffer contents when the region is entered: a parameter
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The hidden values as one function of the whole arrays the region reads. -/
abbrev hiddenOf (c : Dev nD) : S32x128x1024.Idx → EReal := fun i => Cert.LstmSpec.hid
    (fun b t e => (V c main_v8 : Vec Ideal S32x128x512 .bf16) (ix3 b t e))
    (fun g e => (V c main_v18 : Vec Ideal S512x4096 .bf16) (ix2 e g))
    (fun b g => (V c main_v15 : Vec Ideal S32x1x4096 .f32) (ix3 b 0 g))
    (fun b k => (V c main_v16 : Vec Ideal S32x1x1024 .f32) (ix3 b 0 k))
    (i 0) (i 1) (i 2)

/-- The printed index maps, decided over the 32 grid points: the input, bias and initial-cell windows move with the output
    window along the batch axis and stay at block 0 on the others; the weight window stays at block (0, 0). -/
theorem block_index_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (1 : Fin 3) = 0 ∧ win0_4.index t (2 : Fin 3) = 0 ∧ win0_4.index t (0 : Fin 3) ≤ 31 :=
  (by decide +kernel : ∀ t : Fin grid0.N, _)

/-- Every batch row is some point's output block. -/
theorem block_index_onto : ∀ b : Fin 32, ∃ t : Fin cfg0.N, win0_4.index t (0 : Fin 3) = b.val :=
  (by decide +kernel : ∀ b : Fin 32, ∃ t : Fin grid0.N, win0_4.index t (0 : Fin 3) = b.val)

/-- The input block of the point whose batch row is `b`, at `(u, p, e)`: the input array at `(b, p, e)`. -/
theorem input_block_apply (c : Dev nD) (t : Fin cfg0.N) (b : Fin 32) (hb : win0_4.index t (0 : Fin 3) = b.val)
    (u : Fin 1) (p : Fin 128) (e : Fin 512) :
    (iblk0 (F := Ideal) V c 0 t : Vec Ideal S1x128x512 .bf16) (ix3 u p e)
      = (V c main_v8 : Vec Ideal S32x128x512 .bf16) (ix3 b p e) := by
  obtain ⟨f00, f01, f02, -⟩ := block_index_facts t
  show (V c main_v8 : Vec Ideal S32x128x512 .bf16) (((cfg0.win 0).blk t).view.emb (ix3 u p e)) = _
  refine congrArg (V c main_v8 : Vec Ideal S32x128x512 .bf16) ?_
  funext a; apply Fin.ext
  match a with
  | ⟨0, _⟩ => show win0_0.index t (0 : Fin 3) * 1 + 1 * u.val = b.val; omega
  | ⟨1, _⟩ => show win0_0.index t (1 : Fin 3) * 128 + 1 * p.val = p.val; omega
  | ⟨2, _⟩ => show win0_0.index t (2 : Fin 3) * 512 + 1 * e.val = e.val; omega

/-- The weight block of any point is the whole weight. -/
theorem weight_block_apply (c : Dev nD) (t : Fin cfg0.N) (e : Fin 512) (g : Fin 4096) :
    (iblk0 (F := Ideal) V c 1 t : Vec Ideal S512x4096 .bf16) (ix2 e g)
      = (V c main_v18 : Vec Ideal S512x4096 .bf16) (ix2 e g) := by
  obtain ⟨-, -, -, f10, f11, -⟩ := block_index_facts t
  show (V c main_v18 : Vec Ideal S512x4096 .bf16) (((cfg0.win 1).blk t).view.emb (ix2 e g)) = _
  refine congrArg (V c main_v18 : Vec Ideal S512x4096 .bf16) ?_
  funext a; apply Fin.ext
  match a with
  | ⟨0, _⟩ => show win0_1.index t (0 : Fin 2) * 512 + 1 * e.val = e.val; omega
  | ⟨1, _⟩ => show win0_1.index t (1 : Fin 2) * 4096 + 1 * g.val = g.val; omega

/-- The bias block of the point whose batch row is `b`: the bias row of `b`. -/
theorem bias_block_apply (c : Dev nD) (t : Fin cfg0.N) (b : Fin 32) (hb : win0_4.index t (0 : Fin 3) = b.val)
    (u v : Fin 1) (g : Fin 4096) :
    (iblk0 (F := Ideal) V c 2 t : Vec Ideal S1x1x4096 .f32) (ix3 u v g)
      = (V c main_v15 : Vec Ideal S32x1x4096 .f32) (ix3 b 0 g) := by
  obtain ⟨-, -, -, -, -, f20, f21, f22, -⟩ := block_index_facts t
  show (V c main_v15 : Vec Ideal S32x1x4096 .f32) (((cfg0.win 2).blk t).view.emb (ix3 u v g)) = _
  refine congrArg (V c main_v15 : Vec Ideal S32x1x4096 .f32) ?_
  funext a; apply Fin.ext
  match a with
  | ⟨0, _⟩ => show win0_2.index t (0 : Fin 3) * 1 + 1 * u.val = b.val; omega
  | ⟨1, _⟩ => show win0_2.index t (1 : Fin 3) * 1 + 1 * v.val = 0; omega
  | ⟨2, _⟩ => show win0_2.index t (2 : Fin 3) * 4096 + 1 * g.val = g.val; omega

/-- The initial-cell block of the point whose batch row is `b`: the initial cell row of `b`. -/
theorem cell_block_apply (c : Dev nD) (t : Fin cfg0.N) (b : Fin 32) (hb : win0_4.index t (0 : Fin 3) = b.val)
    (u v : Fin 1) (k : Fin 1024) :
    (iblk0 (F := Ideal) V c 3 t : Vec Ideal S1x1x1024 .f32) (ix3 u v k)
      = (V c main_v16 : Vec Ideal S32x1x1024 .f32) (ix3 b 0 k) := by
  obtain ⟨-, -, -, -, -, -, -, -, f30, f31, f32, -⟩ := block_index_facts t
  show (V c main_v16 : Vec Ideal S32x1x1024 .f32) (((cfg0.win 3).blk t).view.emb (ix3 u v k)) = _
  refine congrArg (V c main_v16 : Vec Ideal S32x1x1024 .f32) ?_
  funext a; apply Fin.ext
  match a with
  | ⟨0, _⟩ => show win0_3.index t (0 : Fin 3) * 1 + 1 * u.val = b.val; omega
  | ⟨1, _⟩ => show win0_3.index t (1 : Fin 3) * 1 + 1 * v.val = 0; omega
  | ⟨2, _⟩ => show win0_3.index t (2 : Fin 3) * 1024 + 1 * k.val = k.val; omega

/-- What grid point `t` writes back is its block of the hidden values. -/
theorem flushed_eq (c : Dev nD) (t : Fin cfg0.N) :
    (dat0 (F := Ideal) V c).flushed 4 t = ((cfg0.win 4).blk t).view.read (Elt Ideal) (hiddenOf V c) := by
  show (cfg0.win 4).cut (grid0.coords t) ((dat0 (F := Ideal) V c).after 4 t) = _
  rw [after0_4]
  unfold out0_4
  rw [View.canon_unit_zero zeros3]
  simp only [View.ld_unit_zero (S := S1x128x512) zeros3, View.ld_unit_zero (S := S512x4096) zeros2,
    View.ld_unit_zero (S := S1x1x4096) zeros3, View.ld_unit_zero (S := S1x1x1024) zeros3]
  obtain ⟨-, -, -, -, -, -, -, -, -, -, -, f41, f42, f4b⟩ := block_index_facts t
  funext j
  obtain ⟨u, p, q, rfl⟩ : ∃ (u : Fin 1) (p : Fin 128) (q : Fin 1024), j = ix3 u p q := ⟨j 0, j 1, j 2, eq_ix3 j⟩
  show k0_pay1 (F := Ideal) (iblk0 (F := Ideal) V c 0 t) (iblk0 (F := Ideal) V c 1 t) (iblk0 (F := Ideal) V c 2 t)
      (iblk0 (F := Ideal) V c 3 t) (ix3 u p q)
    = hiddenOf V c (((cfg0.win 4).blk t).view.emb (ix3 u p q))
  refine (pay_apply (iblk0 (F := Ideal) V c 0 t) (iblk0 (F := Ideal) V c 1 t) (iblk0 (F := Ideal) V c 2 t)
    (iblk0 (F := Ideal) V c 3 t) u p q).trans ?_
  have hb : win0_4.index t (0 : Fin 3) = (⟨win0_4.index t (0 : Fin 3), by omega⟩ : Fin 32).val := rfl
  generalize (⟨win0_4.index t (0 : Fin 3), by omega⟩ : Fin 32) = b at hb
  have hi : ((cfg0.win 4).blk t).view.emb (ix3 u p q) = (ix3 b p q : S32x128x1024.Idx) := by
    funext a; apply Fin.ext
    match a with
    | ⟨0, _⟩ => show win0_4.index t (0 : Fin 3) * 1 + 1 * u.val = b.val; omega
    | ⟨1, _⟩ => show win0_4.index t (1 : Fin 3) * 128 + 1 * p.val = p.val; omega
    | ⟨2, _⟩ => show win0_4.index t (2 : Fin 3) * 1024 + 1 * q.val = q.val; omega
  refine Eq.trans ?_ (congrArg (hiddenOf V c) hi).symm
  have e0 : (fun e : Fin 512 => (iblk0 (F := Ideal) V c 0 t : Vec Ideal S1x128x512 .bf16) (ix3 0 p e))
      = fun e => (V c main_v8 : Vec Ideal S32x128x512 .bf16) (ix3 b p e) :=
    funext fun e => input_block_apply V c t b hb 0 p e
  have e1 : (fun (g : Fin 4096) (e : Fin 512) => (iblk0 (F := Ideal) V c 1 t : Vec Ideal S512x4096 .bf16) (ix2 e g))
      = fun g e => (V c main_v18 : Vec Ideal S512x4096 .bf16) (ix2 e g) :=
    funext fun g => funext fun e => weight_block_apply V c t e g
  have e2 : (fun g : Fin 4096 => (iblk0 (F := Ideal) V c 2 t : Vec Ideal S1x1x4096 .f32) (ix3 0 0 g))
      = fun g => (V c main_v15 : Vec Ideal S32x1x4096 .f32) (ix3 b 0 g) :=
    funext fun g => bias_block_apply V c t b hb 0 0 g
  have e3 : (fun k : Fin 1024 => (iblk0 (F := Ideal) V c 3 t : Vec Ideal S1x1x1024 .f32) (ix3 0 0 k))
      = fun k => (V c main_v16 : Vec Ideal S32x1x1024 .f32) (ix3 b 0 k) :=
    funext fun k => cell_block_apply V c t b hb 0 0 k
  exact congrFun (congr (congr (congr (congrArg Cert.LstmSpec.cell e0) e1) e2) e3) q

/-- An index of the array is in point `t`'s block iff each coordinate is in the block's range on its axis. -/
theorem mem_block (t : Fin cfg0.N) (i : S32x128x1024.Idx) :
    i ∈ ((cfg0.win 4).blk t).view.set ↔ ∀ a : Fin 3, win0_4.index t a * S1x128x1024.size a ≤ (i a).val
      ∧ (i a).val < win0_4.index t a * S1x128x1024.size a + S1x128x1024.size a := by
  show i ∈ ((View.whole main_v19).slice (win0_4.rect t)).set ↔ _
  rw [View.set_slice_whole, Rect.mem_set_unit]
  exact Iff.rfl

/-- Every index of the array lies in the block of the point whose batch row is its first coordinate. -/
theorem covered (i : S32x128x1024.Idx) :
    ∃ t : Fin cfg0.N, (cfg0.win 4).flush t = true ∧ i ∈ ((cfg0.win 4).blk t).view.set := by
  obtain ⟨t, ht⟩ := block_index_onto (i 0)
  obtain ⟨-, -, -, -, -, -, -, -, -, -, -, f41, f42, -⟩ := block_index_facts t
  have h1 : (i 1).val < 128 := (i 1).isLt
  have h2 : (i 2).val < 1024 := (i 2).isLt
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- The array the first region leaves (window 4's array after every write-back): at `(b, t, k)` the hidden value of
    batch row `b`, position `t`, unit `k`, computed from the arrays the region reads as it finds them. -/
theorem hidden_array (c : Dev nD) :
    (dat0 (F := Ideal) V c).arrAt 4 cfg0.N
      = fun (i : S32x128x1024.Idx) => Cert.LstmSpec.hid
          (fun b t e => (V c main_v8 : Vec Ideal S32x128x512 .bf16) (ix3 b t e))
          (fun g e => (V c main_v18 : Vec Ideal S512x4096 .bf16) (ix2 e g))
          (fun b g => (V c main_v15 : Vec Ideal S32x1x4096 .f32) (ix3 b 0 g))
          (fun b k => (V c main_v16 : Vec Ideal S32x1x1024 .f32) (ix3 b 0 k))
          (i 0) (i 1) (i 2) :=
  (dat0 (F := Ideal) V c).arrAt_eq_of_cover 4 (hiddenOf V c) (fun t _ => flushed_eq V c t) covered

end Cert.KernelIdeal.CellValue

end
-- ==== Proof.ProjValue.lean ====
/-
  The second region: grid point (word tile, row tile) reads a 512 × 1024 block of hidden rows, a 1024 × 1280 block of
  the transposed projection weight and the matching 1280 bias entries, and stores the 512 × 1280 block of logits. So
  the array the region leaves is, index by index, the projection of its row onto its word.
-/
import proofs.«165702_j9045201125559_1_alg».proof.Proof.Gen.KernelIdeal.Frame
import proofs.«165702_j9045201125559_1_alg».proof.Proof.LstmSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ProjValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The stored value at an index of the block -/

/-- Of the product's entry `i` and contraction index `q`: the left factor is read at (row of `i`, `q`), the right
    factor at (`q`, word of `i`). Four coordinate facts, one per operand axis. -/
theorem lhs_proj_0 (i : S512x1280.Idx) (q : dot_S512x1024_S1024x1280_S512x1280_1_0_0_1_n_n.contr.Idx) :
    (dot_S512x1024_S1024x1280_S512x1280_1_0_0_1_n_n.lhsIdx i q 0).val = (i 0).val := by
  unfold DotDims.lhsIdx
  rw [dif_neg (show ¬(0 : Fin S512x1024.rank) ∈ dot_S512x1024_S1024x1280_S512x1280_1_0_0_1_n_n.lhsBatch by decide), dif_pos (show (0 : Fin S512x1024.rank) ∈ dot_S512x1024_S1024x1280_S512x1280_1_0_0_1_n_n.lhsNonContracting by decide)]
  rfl
theorem lhs_proj_1 (i : S512x1280.Idx) (q : dot_S512x1024_S1024x1280_S512x1280_1_0_0_1_n_n.contr.Idx) :
    (dot_S512x1024_S1024x1280_S512x1280_1_0_0_1_n_n.lhsIdx i q 1).val = (q ⟨0, by decide⟩).val :=
  dot_S512x1024_S1024x1280_S512x1280_1_0_0_1_n_n.lhsIdx_val_of_single rfl i q
theorem rhs_proj_0 (i : S512x1280.Idx) (q : dot_S512x1024_S1024x1280_S512x1280_1_0_0_1_n_n.contr.Idx) :
    (dot_S512x1024_S1024x1280_S512x1280_1_0_0_1_n_n.rhsIdx i q 0).val = (q ⟨0, by decide⟩).val :=
  dot_S512x1024_S1024x1280_S512x1280_1_0_0_1_n_n.rhsIdx_val_of_single rfl i q
theorem rhs_proj_1 (i : S512x1280.Idx) (q : dot_S512x1024_S1024x1280_S512x1280_1_0_0_1_n_n.contr.Idx) :
    (dot_S512x1024_S1024x1280_S512x1280_1_0_0_1_n_n.rhsIdx i q 1).val = (i 1).val := by
  unfold DotDims.rhsIdx
  rw [dif_neg (show ¬(1 : Fin S1024x1280.rank) ∈ dot_S512x1024_S1024x1280_S512x1280_1_0_0_1_n_n.rhsBatch by decide), dif_pos (show (1 : Fin S1024x1280.rank) ∈ dot_S512x1024_S1024x1280_S512x1280_1_0_0_1_n_n.rhsNonContracting by decide)]
  rfl

/-- The block product at row p, word q: the sum over the 1024 hidden units. -/
theorem blockProduct_apply (a : FVec Ideal S512x1024 .bf16) (b : FVec Ideal S1024x1280 .bf16) (p : Fin 512) (q : Fin 1280) :
    matmul dot_S512x1024_S1024x1280_S512x1280_1_0_0_1_n_n none a b (constant (F := Ideal) S512x1280 .f32 0x00000000#32) (ix2 p q)
      = ∑ k : Fin 1024, a (ix2 p k) * b (ix2 k q) := by
  show FloatOps.matmul dot_S512x1024_S1024x1280_S512x1280_1_0_0_1_n_n none a b (constant (F := Ideal) S512x1280 .f32 0x00000000#32) (ix2 p q) = _
  rw [Ideal.matmul_constant_zero_apply, ← Equiv.sum_comp (ValueIdx.contrEquiv1 dot_S512x1024_S1024x1280_S512x1280_1_0_0_1_n_n 1024 rfl rfl).symm]
  refine Finset.sum_congr rfl fun k _ => ?_
  have hk := ValueIdx.contrEquiv1_symm_val dot_S512x1024_S1024x1280_S512x1280_1_0_0_1_n_n 1024 rfl rfl k
  have el : dot_S512x1024_S1024x1280_S512x1280_1_0_0_1_n_n.lhsIdx (ix2 p q) ((ValueIdx.contrEquiv1 dot_S512x1024_S1024x1280_S512x1280_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1280_S512x1280_1_0_0_1_n_n.rhsIdx (ix2 p q) ((ValueIdx.contrEquiv1 dot_S512x1024_S1024x1280_S512x1280_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- The body's stored value at row p, word q of the block: the block product plus the bias entry of word q. -/
theorem payload_apply (x0 : Vec Ideal S512x1024 .bf16) (x1 : Vec Ideal S1024x1280 .bf16) (x2 : Vec Ideal S1x1280 .f32)
    (p : Fin 512) (q : Fin 1280) :
    k1_pay1 x0 x1 x2 (ix2 p q) = (∑ k : Fin 1024, x0 (ix2 p k) * x1 (ix2 k q)) + x2 (ix2 0 q) := by
  unfold k1_pay1
  rw [shapeCast_self, shapeCast_self, shapeCast_self]
  refine (addf_apply _ _ (ix2 p q)).trans ?_
  rw [blockProduct_apply, broadcastTo_1b_ab_apply]

/-! ## The logits, and the tiles of a grid point -/

/-- The offsets of a whole-block access are zero on both axes. -/
theorem zeroOffsets : (![0, 0] : Fin 2 → Nat) = fun _ => 0 := funext fun a => by fin_cases a <;> rfl

/-- The logits as one function of the three arrays the region reads: at (r, v) the sum over the hidden units of
    row r's hidden value times word v's weight, plus word v's bias. -/
def logitsOf (A : Vec Ideal S4096x1024 .bf16) (B : Vec Ideal S1024x32000 .bf16) (C : Vec Ideal S1x32000 .f32) :
    S4096x32000.Idx → EReal :=
  fun i => (∑ k : Fin 1024, A (ix2 (i 0) k) * B (ix2 k (i 1))) + C (ix2 0 (i 1))

/-- The printed index maps over the grid: the row tile is the point's second coordinate, the word tile its first. -/
theorem tileIndices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 7 ∧ win1_3.index t (1 : Fin 2) ≤ 24 :=
  (by decide +kernel : ∀ t : Fin grid1.N, _)

/-! ## The blocks cover the array -/

/-- Every pair (row tile, word tile) is some point's. -/
theorem tiles_onto : ∀ (a : Fin 8) (b : Fin 25), ∃ t : Fin cfg1.N, win1_3.index t = ![a.val, b.val] :=
  (by decide +kernel : ∀ (a : Fin 8) (b : Fin 25), ∃ t : Fin grid1.N, win1_3.index t = ![a.val, b.val])

/-- An index of the array is in point t's block iff each coordinate is in the block's range on its axis. -/
theorem mem_block (t : Fin cfg1.N) (i : S4096x32000.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v24).slice (win1_3.rect t)).set ↔ _
  rw [View.set_slice_whole, Rect.mem_set_unit]
  exact Iff.rfl

/-- Every index of the array lies in the block of the point whose tiles are its row over 512 and its word over 1280. -/
theorem blocks_cover (i : S4096x32000.Idx) :
    ∃ t : Fin cfg1.N, (cfg1.win 3).flush t = true ∧ i ∈ ((cfg1.win 3).blk t).view.set := by
  have hi0 : (i 0).val < 4096 := (i 0).isLt
  have hi1 : (i 1).val < 32000 := (i 1).isLt
  obtain ⟨t, ht⟩ := tiles_onto ⟨(i 0).val / 512, by omega⟩ ⟨(i 1).val / 1280, by omega⟩
  have q0 : win1_3.index t (0 : Fin 2) = (i 0).val / 512 := congrFun ht 0
  have q1 : win1_3.index t (1 : Fin 2) = (i 1).val / 1280 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1280 ≤ (i 1).val ∧ (i 1).val < win1_3.index t (1 : Fin 2) * 1280 + 1280; omega

-- the TensorCore's buffer contents when the region is entered: a parameter
variable (V : (c : Dev nD) → (b : Ref sig .tc) → Buf (Elt Ideal) ((c : Thread nD τ).loc b))

/-- What point t writes back is its block of the logits: the stored value at (p, q) is the block product plus the
    bias, and each block's entry sits in its array at tile index × tile size + the coordinate inside the tile. -/
theorem flushed_block (c : Dev nD) (t : Fin cfg1.N) :
    (dat1 (F := Ideal) V c).flushed 3 t
      = ((cfg1.win 3).blk t).view.read (Elt Ideal) (logitsOf (V c main_v20) (V c main_v22) (V c main_v23)) := by
  show (cfg1.win 3).cut (grid1.coords t) ((dat1 V c).after 3 t) = _
  rw [after1_3]
  unfold out1_3
  rw [View.canon_unit_zero zeroOffsets]
  simp only [View.ld_unit_zero (S := S512x1024) zeroOffsets, View.ld_unit_zero (S := S1024x1280) zeroOffsets, View.ld_unit_zero (S := S1x1280) zeroOffsets]
  funext j
  obtain ⟨p, q, rfl⟩ : ∃ (p : Fin 512) (q : Fin 1280), j = ix2 p q := ⟨j 0, j 1, eq_ix2 j⟩
  show k1_pay1 (iblk1 V c 0 t) (iblk1 V c 1 t) (iblk1 V c 2 t) (ix2 p q)
      = logitsOf (V c main_v20) (V c main_v22) (V c main_v23) (((cfg1.win 3).blk t).view.emb (ix2 p q))
  refine (payload_apply (iblk1 V c 0 t) (iblk1 V c 1 t) (iblk1 V c 2 t) p q).trans ?_
  obtain ⟨e00, e01, e10, e11, e20, e21, -, -⟩ := tileIndices t
  unfold logitsOf
  have hp : p.val < 512 := p.isLt
  have hq : q.val < 1280 := q.isLt
  -- the row and the word of the block's entry (p, q) in the array
  have row : ((((cfg1.win 3).blk t).view.emb (ix2 p q)) 0).val = win1_3.index t (0 : Fin 2) * 512 + 1 * p.val := rfl
  have word : ((((cfg1.win 3).blk t).view.emb (ix2 p q)) 1).val = win1_3.index t (1 : Fin 2) * 1280 + 1 * q.val := rfl
  refine congrArg₂ (· + ·) (Finset.sum_congr rfl fun k _ => congrArg₂ (· * ·) ?_ ?_) ?_
  · -- the hidden block's row p is the array's row
    show V c main_v20 (((cfg1.win 0).blk t).view.emb (ix2 p k)) = _
    refine congrArg (V c main_v20) (funext fun a => Fin.ext ?_)
    match a with
    | ⟨0, _⟩ => show win1_0.index t (0 : Fin 2) * 512 + 1 * p.val = _; rw [row]; omega
    | ⟨1, _⟩ => show win1_0.index t (1 : Fin 2) * 1024 + 1 * k.val = k.val; omega
  · -- the weight block's column q is the array's word
    show V c main_v22 (((cfg1.win 1).blk t).view.emb (ix2 k q)) = _
    refine congrArg (V c main_v22) (funext fun a => Fin.ext ?_)
    match a with
    | ⟨0, _⟩ => show win1_1.index t (0 : Fin 2) * 1024 + 1 * k.val = k.val; omega
    | ⟨1, _⟩ => show win1_1.index t (1 : Fin 2) * 1280 + 1 * q.val = _; rw [word]; omega
  · -- the bias block's entry q is the array's word
    show V c main_v23 (((cfg1.win 2).blk t).view.emb (ix2 0 q)) = _
    refine congrArg (V c main_v23) (funext fun a => Fin.ext ?_)
    match a with
    | ⟨0, _⟩ => show win1_2.index t (0 : Fin 2) * 1 + 1 * 0 = 0; omega
    | ⟨1, _⟩ => show win1_2.index t (1 : Fin 2) * 1280 + 1 * q.val = _; rw [word]; omega

/-- The array the second region leaves (window 3's array after every write-back): at `(r, v)` the projection of
    hidden row `r` onto word `v`, computed from the arrays the region reads as it finds them. -/
theorem logits_array (c : Dev nD) :
    (dat1 (F := Ideal) V c).arrAt 3 cfg1.N
      = fun (i : S4096x32000.Idx) => Cert.LstmSpec.proj
          (fun k => (V c main_v20 : Vec Ideal S4096x1024 .bf16) (ix2 (i 0) k))
          (fun v k => (V c main_v22 : Vec Ideal S1024x32000 .bf16) (ix2 k v))
          (fun v => (V c main_v23 : Vec Ideal S1x32000 .f32) (ix2 0 v))
          (i 1) :=
  (dat1 (F := Ideal) V c).arrAt_eq_of_cover 3 (logitsOf (V c main_v20) (V c main_v22) (V c main_v23))
    (fun t _ => flushed_block V c t) blocks_cover

end Cert.KernelIdeal.ProjValue

end
-- ==== Proof.KernelValue.lean ====
/-
  The kernel program's result, index by index, is the specification's logit of the launch memory: the second region's
  array is the projection of the rows it finds, those rows are the first region's hidden values re-laid, and the first
  region's inputs are the gathered embedding rows, `W_ih` transposed, the recurrent bias and `c₀`.
-/
import proofs.«165702_j9045201125559_1_alg».proof.Proof.HostValues
import proofs.«165702_j9045201125559_1_alg».proof.Proof.CellValue
import proofs.«165702_j9045201125559_1_alg».proof.Proof.ProjValue
import proofs.«165702_j9045201125559_1_alg».proof.Proof.LstmSpec

set_option maxRecDepth 16384

noncomputable section

namespace Cert.KernelIdeal.KernelValue

open Cert.KernelIdeal Cert.KernelIdeal.Gen Cert.KernelIdeal.HostValues
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The logits as a function of the launch memory. -/
def logits (c : Dev nD) : FVec Ideal S32x128x32000 .f32 := fun i =>
  Cert.LstmSpec.logit
      (fun b t e => embRows (m ((c : Thread nD τ).loc main_arg0)) (m ((c : Thread nD τ).loc main_arg3)) (ix3 b t e))
      (fun g e => (m ((c : Thread nD τ).loc main_arg4)) (ix2 g e))
      (fun b g => recBias (m ((c : Thread nD τ).loc main_arg1)) (m ((c : Thread nD τ).loc main_arg5)) (m ((c : Thread nD τ).loc main_arg6)) (m ((c : Thread nD τ).loc main_arg7)) (ix2 b g))
      (fun b k => (m ((c : Thread nD τ).loc main_arg2)) (ix2 b k))
      (fun v k => (m ((c : Thread nD τ).loc main_arg8)) (ix2 v k))
      (fun v => (m ((c : Thread nD τ).loc main_arg9)) (ix1 v))
      (i 0) (i 1) (i 2)

/-- The hidden row the second region finds at row `128·b + t` is the specification's hidden row of `(b, t)`. -/
theorem hidden_row (c : Dev nD) (b : Fin 32) (t : Fin 128) (k : Fin 1024) :
    (V3 m ρ c main_v20 : Vec Ideal S4096x1024 .bf16) (ix2 ⟨128 * b.val + t.val, by omega⟩ k)
      = Cert.LstmSpec.hid
      (fun b t e => embRows (m ((c : Thread nD τ).loc main_arg0)) (m ((c : Thread nD τ).loc main_arg3)) (ix3 b t e))
      (fun g e => (m ((c : Thread nD τ).loc main_arg4)) (ix2 g e))
      (fun b g => recBias (m ((c : Thread nD τ).loc main_arg1)) (m ((c : Thread nD τ).loc main_arg5)) (m ((c : Thread nD τ).loc main_arg6)) (m ((c : Thread nD τ).loc main_arg7)) (ix2 b g))
      (fun b k => (m ((c : Thread nD τ).loc main_arg2)) (ix2 b k))
      b t k := by
  rw [entry_h, CellValue.hidden_array (V1 m ρ) c]
  show Cert.LstmSpec.hid _ _ _ _ b t k = _
  rw [show (fun (b : Fin 32) (t : Fin 128) (e : Fin 512) => (V1 m ρ c main_v8 : Vec Ideal S32x128x512 .bf16) (ix3 b t e))
        = fun b t e => embRows (m ((c : Thread nD τ).loc main_arg0)) (m ((c : Thread nD τ).loc main_arg3)) (ix3 b t e)
      from funext fun b => funext fun t => funext fun e => entry_x m ρ c b t e,
    show (fun (g : Fin 4096) (e : Fin 512) => (V1 m ρ c main_v18 : Vec Ideal S512x4096 .bf16) (ix2 e g))
        = fun g e => (m ((c : Thread nD τ).loc main_arg4)) (ix2 g e)
      from funext fun g => funext fun e => entry_w m ρ c g e,
    show (fun (b : Fin 32) (g : Fin 4096) => (V1 m ρ c main_v15 : Vec Ideal S32x1x4096 .f32) (ix3 b 0 g))
        = fun b g => recBias (m ((c : Thread nD τ).loc main_arg1)) (m ((c : Thread nD τ).loc main_arg5)) (m ((c : Thread nD τ).loc main_arg6)) (m ((c : Thread nD τ).loc main_arg7)) (ix2 b g)
      from funext fun b => funext fun g => entry_b m ρ c b g,
    show (fun (b : Fin 32) (k : Fin 1024) => (V1 m ρ c main_v16 : Vec Ideal S32x1x1024 .f32) (ix3 b 0 k))
        = fun b k => (m ((c : Thread nD τ).loc main_arg2)) (ix2 b k)
      from funext fun b => funext fun k => entry_c m ρ c b k]

/-- What the last segment boundary holds at the result buffer is the logit array. -/
theorem result_eq (c : Dev nD) : W5 m ρ c (Proc.devRef .tc main_v25) = logits m c := by
  funext i
  obtain ⟨b, t, v, rfl⟩ : ∃ (b : Fin 32) (t : Fin 128) (v : Fin 32000), i = ix3 b t v := ⟨i 0, i 1, i 2, eq_ix3 i⟩
  refine (result_at m ρ c b t v).trans ?_
  refine (congrFun (ProjValue.logits_array (V3 m ρ) c) (ix2 ⟨128 * b.val + t.val, by omega⟩ v)).trans ?_
  show Cert.LstmSpec.proj
        (fun (k : Fin 1024) => (V3 m ρ c main_v20 : Vec Ideal S4096x1024 .bf16) (ix2 ⟨128 * b.val + t.val, by omega⟩ k))
        (fun (v : Fin 32000) (k : Fin 1024) => (V3 m ρ c main_v22 : Vec Ideal S1024x32000 .bf16) (ix2 k v))
        (fun (v : Fin 32000) => (V3 m ρ c main_v23 : Vec Ideal S1x32000 .f32) (ix2 0 v)) v
      = Cert.LstmSpec.proj
        (Cert.LstmSpec.hid
      (fun b t e => embRows (m ((c : Thread nD τ).loc main_arg0)) (m ((c : Thread nD τ).loc main_arg3)) (ix3 b t e))
      (fun g e => (m ((c : Thread nD τ).loc main_arg4)) (ix2 g e))
      (fun b g => recBias (m ((c : Thread nD τ).loc main_arg1)) (m ((c : Thread nD τ).loc main_arg5)) (m ((c : Thread nD τ).loc main_arg6)) (m ((c : Thread nD τ).loc main_arg7)) (ix2 b g))
      (fun b k => (m ((c : Thread nD τ).loc main_arg2)) (ix2 b k))
      b t)
        (fun v k => (m ((c : Thread nD τ).loc main_arg8)) (ix2 v k))
        (fun v => (m ((c : Thread nD τ).loc main_arg9)) (ix1 v)) v
  rw [show (fun (k : Fin 1024) => (V3 m ρ c main_v20 : Vec Ideal S4096x1024 .bf16) (ix2 ⟨128 * b.val + t.val, by omega⟩ k))
        = Cert.LstmSpec.hid
      (fun b t e => embRows (m ((c : Thread nD τ).loc main_arg0)) (m ((c : Thread nD τ).loc main_arg3)) (ix3 b t e))
      (fun g e => (m ((c : Thread nD τ).loc main_arg4)) (ix2 g e))
      (fun b g => recBias (m ((c : Thread nD τ).loc main_arg1)) (m ((c : Thread nD τ).loc main_arg5)) (m ((c : Thread nD τ).loc main_arg6)) (m ((c : Thread nD τ).loc main_arg7)) (ix2 b g))
      (fun b k => (m ((c : Thread nD τ).loc main_arg2)) (ix2 b k))
      b t
      from funext fun k => hidden_row m ρ c b t k,
    show (fun (v : Fin 32000) (k : Fin 1024) => (V3 m ρ c main_v22 : Vec Ideal S1024x32000 .bf16) (ix2 k v))
        = fun v k => (m ((c : Thread nD τ).loc main_arg8)) (ix2 v k)
      from funext fun v => funext fun k => entry_fw m ρ c k v,
    show (fun (v : Fin 32000) => (V3 m ρ c main_v23 : Vec Ideal S1x32000 .f32) (ix2 0 v))
        = fun v => (m ((c : Thread nD τ).loc main_arg9)) (ix1 v)
      from funext fun v => entry_fb m ρ c v]

end Cert.KernelIdeal.KernelValue

end
-- ==== Proof.RefStages.lean ====
/-
  The reference program read stage by stage at an index: its result is the logit of the specification, with the
  embedding rows it gathers and the recurrent bias `h₀·W_hhᵀ + (b_ih + b_hh)` kept as the stages that compute them.
  Its sigmoid is spelt `1 / (1 + e^(-x))`, which is the logistic function of the extended reals by definition.
-/
import proofs.«165702_j9045201125559_1_alg».proof.Proof.Gen.ReferenceIdeal.Run
import proofs.«165702_j9045201125559_1_alg».proof.Proof.Gen.ReferenceIdeal.Read
import proofs.«165702_j9045201125559_1_alg».proof.Proof.LstmSpec
import Idealize.ShloMosaic.PureOps.Ideal.Laws
import Idealize.ShloMosaic.PureOps.IdealRules
import Idealize.ShloMosaic.Lib.ValueIdx

set_option maxRecDepth 16384

noncomputable section

namespace Cert.ReferenceIdeal.RefStages

open Cert.ReferenceIdeal Cert.ReferenceIdeal.Gen Cert.ReferenceIdeal.Read
open Idealize.ShloMosaic Idealize.ShloMosaic.TcCoe Idealize.ShloMosaic.ValueIdx

/-- The word `0x3F800000` is the single-precision pattern of `1`, so the constant the reference's sigmoid is
    written with denotes `1` in the extended reals. -/
theorem one_word : Ideal.ofBits .f32 (0x3F800000#32 : BitVec 32) = 1 :=
  IdealRules.sign_bit.ideal_onePat .f32

/-- Stage `%17` at `(b, t, g)`: the contraction of the gathered row `(b, t)` with row `g` of `W_ih`, plus the
    recurrent bias of batch row `b` at column `g` (stage `%13`, broadcast along the time axis). That is the
    specification's gate pre-activation. -/
theorem gates_at (x0 : (⟨S32x129, .i32⟩ : BufTy).Contents (Elt Ideal)) (x1 : (⟨S32x1024, .f32⟩ : BufTy).Contents (Elt Ideal))
    (x3 : (⟨S32000x512, .f32⟩ : BufTy).Contents (Elt Ideal)) (x4 : (⟨S4096x512, .f32⟩ : BufTy).Contents (Elt Ideal))
    (x5 : (⟨S4096x1024, .f32⟩ : BufTy).Contents (Elt Ideal)) (x6 x7 : (⟨S4096, .f32⟩ : BufTy).Contents (Elt Ideal))
    (b : Fin 32) (t : Fin 128) (g : Fin 4096) :
    val_main_v17 (F := Ideal) x0 x1 x3 x4 x5 x6 x7 (ix3 b t g)
      = Cert.LstmSpec.gateAt (fun e => val_main_v7 (F := Ideal) x0 x3 (ix3 b t e)) (fun g e => x4 (ix2 g e))
          (fun g => val_main_v13 (F := Ideal) x1 x5 x6 x7 (ix2 b g)) g := by
  have el : ∀ k : Fin 512, lidx_main_v14 (ix3 b t g) k = ix3 b t k := fun k => funext fun a => Fin.ext (by
    match a with | ⟨0, _⟩ => rfl | ⟨1, _⟩ => rfl | ⟨2, _⟩ => rfl)
  have er : ∀ k : Fin 512, ridx_main_v14 (ix3 b t g) k = ix2 g k := fun k => funext fun a => Fin.ext (by
    match a with | ⟨0, _⟩ => rfl | ⟨1, _⟩ => rfl)
  have eb : idx_main_v15 (idx_main_v16 (ix3 b t g)) = ix2 b g := funext fun a => Fin.ext (by
    match a with | ⟨0, _⟩ => rfl | ⟨1, _⟩ => rfl)
  rw [val_main_v17_apply, val_main_v14_apply, val_main_v16_apply, val_main_v15_apply]
  simp only [el, er, eb, Ideal.addf_def]
  rfl

/-- Stage `%47` at `(b, t, k)`. The four slices of stage `%17` read gate columns `k`, `1024 + k`, `2048 + k` and
    `3072 + k` (input, forget, cell and output gate); each `1 / (1 + e^(-x))` is the logistic function; `c₀` is
    broadcast along the time axis. The products and the sum stand in the order of the specification's cell:
    `σ(o) · tanh(σ(f)·c₀ + σ(i)·tanh(g))`. -/
theorem hidden_at (x0 : (⟨S32x129, .i32⟩ : BufTy).Contents (Elt Ideal)) (x1 x2 : (⟨S32x1024, .f32⟩ : BufTy).Contents (Elt Ideal))
    (x3 : (⟨S32000x512, .f32⟩ : BufTy).Contents (Elt Ideal)) (x4 : (⟨S4096x512, .f32⟩ : BufTy).Contents (Elt Ideal))
    (x5 : (⟨S4096x1024, .f32⟩ : BufTy).Contents (Elt Ideal)) (x6 x7 : (⟨S4096, .f32⟩ : BufTy).Contents (Elt Ideal))
    (b : Fin 32) (t : Fin 128) (k : Fin 1024) :
    val_main_v47 (F := Ideal) x0 x1 x2 x3 x4 x5 x6 x7 (ix3 b t k)
      = Cert.LstmSpec.cell (fun e => val_main_v7 (F := Ideal) x0 x3 (ix3 b t e)) (fun g e => x4 (ix2 g e))
          (fun g => val_main_v13 (F := Ideal) x1 x5 x6 x7 (ix2 b g)) (fun k => x2 (ix2 b k)) k := by
  have e0 : idx_main_v18 (ix3 b t k) = ix3 b t (Cert.LstmSpec.col 0 k) := funext fun a => Fin.ext (by
    match a with
    | ⟨0, _⟩ => rfl
    | ⟨1, _⟩ => rfl
    | ⟨2, _⟩ => show k.val = 1024 * (0 : Fin 4).val + k.val; simp)
  have e1 : idx_main_v19 (ix3 b t k) = ix3 b t (Cert.LstmSpec.col 1 k) := funext fun a => Fin.ext (by
    match a with
    | ⟨0, _⟩ => rfl
    | ⟨1, _⟩ => rfl
    | ⟨2, _⟩ => show 1024 + k.val = 1024 * (1 : Fin 4).val + k.val; simp)
  have e2 : idx_main_v20 (ix3 b t k) = ix3 b t (Cert.LstmSpec.col 2 k) := funext fun a => Fin.ext (by
    match a with
    | ⟨0, _⟩ => rfl
    | ⟨1, _⟩ => rfl
    | ⟨2, _⟩ => show 2048 + k.val = 1024 * (2 : Fin 4).val + k.val; rfl)
  have e3 : idx_main_v21 (ix3 b t k) = ix3 b t (Cert.LstmSpec.col 3 k) := funext fun a => Fin.ext (by
    match a with
    | ⟨0, _⟩ => rfl
    | ⟨1, _⟩ => rfl
    | ⟨2, _⟩ => show 3072 + k.val = 1024 * (3 : Fin 4).val + k.val; rfl)
  have ec : idx_main_v41 (idx_main_v42 (ix3 b t k)) = ix2 b k := funext fun a => Fin.ext (by
    match a with | ⟨0, _⟩ => rfl | ⟨1, _⟩ => rfl)
  simp only [val_main_v47_apply, val_main_v46_apply, val_main_v45_apply, val_main_v44_apply, val_main_v43_apply,
    val_main_v42_apply, val_main_v41_apply, val_main_v40_apply, val_main_v39_apply, val_main_v38_apply,
    val_main_v37_apply, val_main_v36_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_cst_apply, val_main_cst_1_apply, val_main_cst_2_apply, val_main_cst_3_apply, val_main_cst_4_apply,
    val_main_cst_5_apply]
  simp only [e0, e1, e2, e3, ec, gates_at]
  simp only [Ideal.mulf_def, Ideal.addf_def, Ideal.hostDivf_def, Ideal.hostUnary_exp_def, Ideal.hostUnary_tanh_def,
    Ideal.hostNegf_def, Ideal.negf_def, Ideal.ofBits_def, one_word]
  rfl

/-- The reference's last stage, index by index, is the specification's logit of: the gathered embedding rows
    (stage `%7`), `W_ih`, the recurrent bias (stage `%13`), `c₀`, `fc_w` and `fc_b`. -/
theorem result_eq (x0 : (⟨S32x129, .i32⟩ : BufTy).Contents (Elt Ideal)) (x1 x2 : (⟨S32x1024, .f32⟩ : BufTy).Contents (Elt Ideal))
    (x3 : (⟨S32000x512, .f32⟩ : BufTy).Contents (Elt Ideal)) (x4 : (⟨S4096x512, .f32⟩ : BufTy).Contents (Elt Ideal))
    (x5 : (⟨S4096x1024, .f32⟩ : BufTy).Contents (Elt Ideal)) (x6 x7 : (⟨S4096, .f32⟩ : BufTy).Contents (Elt Ideal))
    (x8 : (⟨S32000x1024, .f32⟩ : BufTy).Contents (Elt Ideal)) (x9 : (⟨S32000, .f32⟩ : BufTy).Contents (Elt Ideal)) :
    val_main_v51 (F := Ideal) x0 x1 x2 x3 x4 x5 x6 x7 x8 x9
      = fun (i : S32x128x32000.Idx) => Cert.LstmSpec.logit
          (fun b t e => val_main_v7 (F := Ideal) x0 x3 (ix3 b t e))
          (fun g e => x4 (ix2 g e))
          (fun b g => val_main_v13 (F := Ideal) x1 x5 x6 x7 (ix2 b g))
          (fun b k => x2 (ix2 b k))
          (fun v k => x8 (ix2 v k))
          (fun v => x9 (ix1 v))
          (i 0) (i 1) (i 2) := by
  funext i
  obtain ⟨b, t, v, rfl⟩ : ∃ (b : Fin 32) (t : Fin 128) (v : Fin 32000), i = ix3 b t v := ⟨i 0, i 1, i 2, eq_ix3 i⟩
  have el : ∀ k : Fin 1024, lidx_main_v48 (ix3 b t v) k = ix3 b t k := fun k => funext fun a => Fin.ext (by
    match a with | ⟨0, _⟩ => rfl | ⟨1, _⟩ => rfl | ⟨2, _⟩ => rfl)
  have er : ∀ k : Fin 1024, ridx_main_v48 (ix3 b t v) k = ix2 v k := fun k => funext fun a => Fin.ext (by
    match a with | ⟨0, _⟩ => rfl | ⟨1, _⟩ => rfl)
  have eb : idx_main_v49 (idx_main_v50 (ix3 b t v)) = ix1 v := funext fun a => Fin.ext (by
    match a with | ⟨0, _⟩ => rfl)
  show _ = Cert.LstmSpec.logit _ _ _ _ _ _ b t v
  rw [val_main_v51_apply, val_main_v48_apply, val_main_v50_apply, val_main_v49_apply]
  simp only [el, er, eb, hidden_at, Ideal.addf_def]
  rfl

end Cert.ReferenceIdeal.RefStages

end
-- ==== Proof.SharedGlue.lean ====
/-
  The two programs share their host preamble: both gather the embedding rows of the tokens with the same index
  arithmetic, and both form the recurrent bias `h₀·W_hhᵀ + (b_ih + b_hh)` with the same operations in the same order.
  Each program prints its own copy of the shapes and of the gather's and the product's dimension records; the copies
  have the same fields, so the two terms are one.
-/
import proofs.«165702_j9045201125559_1_alg».proof.Proof.HostValues
import proofs.«165702_j9045201125559_1_alg».proof.Proof.Gen.ReferenceIdeal.Read

set_option maxRecDepth 16384

noncomputable section

namespace Cert.SharedGlue

open Idealize.ShloMosaic

/-- The reference's gathered rows (its stage `%7`) are the kernel program's. -/
theorem embRows_eq (x0 : IVec Cert.KernelIdeal.S32x129 32) (x3 : FVec Ideal Cert.KernelIdeal.S32000x512 .f32) :
    Cert.ReferenceIdeal.Read.val_main_v7 (F := Ideal) x0 x3 = Cert.KernelIdeal.HostValues.embRows x0 x3 := by
  unfold Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_c_0
    Cert.ReferenceIdeal.Read.val_main_v2 Cert.ReferenceIdeal.Read.val_main_v1 Cert.ReferenceIdeal.Read.val_main_c
    Cert.ReferenceIdeal.Read.val_main_v0 Cert.KernelIdeal.HostValues.embRows
  rfl

/-- The reference's recurrent bias (its stage `%13`) is the kernel program's. -/
theorem recBias_eq (x1 : FVec Ideal Cert.KernelIdeal.S32x1024 .f32) (x5 : FVec Ideal Cert.KernelIdeal.S4096x1024 .f32)
    (x6 x7 : FVec Ideal Cert.KernelIdeal.S4096 .f32) :
    Cert.ReferenceIdeal.Read.val_main_v13 (F := Ideal) x1 x5 x6 x7 = Cert.KernelIdeal.HostValues.recBias x1 x5 x6 x7 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.KernelIdeal.HostValues.recBias
  rfl

end Cert.SharedGlue

end
-- ==== Proof.lean ====
/-
  A sequence model's decoding step, vectorised over time: every position runs ONE LSTM step from the same initial state
  `(h₀, c₀)`, and the hidden values are projected onto the vocabulary.

  Both programs gather the embedding rows `x[b,t,:]` of the first 128 tokens of each of the 32 batch rows and form the
  recurrent bias `h₀·W_hhᵀ + (b_ih + b_hh)`. The kernel program then runs two grids. The first, one point per batch
  row, multiplies the row's 128 × 512 block of inputs with `W_ihᵀ`, adds the bias row, cuts the 4096 gate columns into
  their input, forget, cell and output quarters, and stores `σ(o)·tanh(σ(f)·c₀ + σ(i)·tanh(g))`. The second, over
  25 word tiles × 8 row tiles, multiplies 512 hidden rows with 1280 columns of `fc_wᵀ` and adds `fc_b`. The reference
  computes the same quantities with whole-array contractions, its sigmoid spelt `1 / (1 + e^(-x))`.

  Over the extended reals a change of float format is the identity, a matrix product into a zero accumulator is the plain
  sum of products, and the logistic function IS `1 / (1 + e^(-x))`; the factors of every product and the summands of
  every sum stand in the same order in both programs, so the two results are one function of the inputs, index by
  index, with no algebraic law and no finiteness used: the logit `Σ_k hidden[b,t,k]·fc_w[v,k] + fc_b[v]`
  (Proof/LstmSpec.lean). Proof/CellValue.lean and Proof/ProjValue.lean read what each grid leaves in its output array,
  Proof/HostValues.lean the host operations around them, Proof/KernelValue.lean composes them, Proof/RefStages.lean
  reads the reference, Proof/SharedGlue.lean identifies the two programs' common preamble. The idealization of the
  kernel rewrote nothing, so `preserves` has no conjunct.
-/
import proofs.«165702_j9045201125559_1_alg».proof.Defs
import proofs.«165702_j9045201125559_1_alg».proof.Proof.Gen.Kernel
import proofs.«165702_j9045201125559_1_alg».proof.Proof.Gen.Kernel.Skeleton
import proofs.«165702_j9045201125559_1_alg».proof.Proof.Gen.Kernel.Launch
import proofs.«165702_j9045201125559_1_alg».proof.Proof.Gen.Kernel.Points
import proofs.«165702_j9045201125559_1_alg».proof.Proof.Gen.Kernel.Frame
import proofs.«165702_j9045201125559_1_alg».proof.Proof.Gen.KernelIdeal
import proofs.«165702_j9045201125559_1_alg».proof.Proof.Gen.KernelIdeal.Skeleton
import proofs.«165702_j9045201125559_1_alg».proof.Proof.Gen.KernelIdeal.Launch
import proofs.«165702_j9045201125559_1_alg».proof.Proof.Gen.KernelIdeal.Points
import proofs.«165702_j9045201125559_1_alg».proof.Proof.Gen.KernelIdeal.Frame
import proofs.«165702_j9045201125559_1_alg».proof.Proof.Gen.ReferenceIdeal
import proofs.«165702_j9045201125559_1_alg».proof.Proof.Gen.ReferenceIdeal.Run
import proofs.«165702_j9045201125559_1_alg».proof.Proof.Gen.ReferenceIdeal.Read
import proofs.«165702_j9045201125559_1_alg».proof.Proof.Gen.Pre_finite_inputs
import proofs.«165702_j9045201125559_1_alg».proof.Proof.LaunchValue
import proofs.«165702_j9045201125559_1_alg».proof.Proof.KernelValue
import proofs.«165702_j9045201125559_1_alg».proof.Proof.RefStages
import proofs.«165702_j9045201125559_1_alg».proof.Proof.SharedGlue
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the inputs both idealized programs end with the logit array of those inputs. -/
theorem algebraic : Cert.algebraic_KernelIdeal_ReferenceIdeal := by
  intro m ρ m' ρ' _ hagree
  refine ⟨fun c => Cert.KernelIdeal.KernelValue.logits m c, ?_, ?_⟩
  · exact (θ_run Cert.KernelIdeal.defs _ _).mono
      (fun r h c => ⟨(h c).1.trans (Cert.KernelIdeal.KernelValue.result_eq m ρ c), (h c).2⟩)
      (Cert.KernelIdeal.LaunchValue.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v51_eq, Cert.ReferenceIdeal.RefStages.result_eq, h0, h1, h2, h3, h4, h5, h6, h7, h8, h9]
    have e7 := Cert.SharedGlue.embRows_eq (m ((c.tc : Thread Cert.KernelIdeal.nD Cert.KernelIdeal.τ).loc Cert.KernelIdeal.main_arg0)) (m ((c.tc : Thread Cert.KernelIdeal.nD Cert.KernelIdeal.τ).loc Cert.KernelIdeal.main_arg3))
    have e13 := Cert.SharedGlue.recBias_eq (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    rw [e7, e13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
